-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x64 : Shape := ⟨2, ![4096, 64]⟩
abbrev S4096 : Shape := ⟨1, ![4096]⟩
abbrev S16x4096 : Shape := ⟨2, ![16, 4096]⟩
abbrev S4096x16 : Shape := ⟨2, ![4096, 16]⟩
abbrev S_ : Shape := ⟨0, ![]⟩
abbrev S4096x4096 : Shape := ⟨2, ![4096, 4096]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_
  reducesTo_S_S_d : S_.ReducesTo [] S_
  bcast_S_S4096x4096 : S_.BroadcastsInDim S4096x4096 (![] : Fin 0 → Fin S4096x4096.rank)
  reducesTo_S4096x4096_S_d0_1 : S4096x4096.ReducesTo [0, 1] S_

variable [Facts]

def fn_part2 {F : FTy → Type} [FloatOps F] (main_v27 : IVec S_ 1) (main_v32 : IVec S4096x4096 1) (main_c_12 : IVec S_ 1) : IVec S_ 1 :=
  let main_v33 : IVec S_ 1 := (fun x v => Host.reduce IntOp.andi x v reducesTo_S4096x4096_S_d0_1 h_S_) main_v32 main_c_12
  let main_v34 : IVec S_ 1 := andi main_v27 main_v33
  main_v34

def fn_part1 {F : FTy → Type} [FloatOps F] (main_arg4 : FVec F S4096x16 .f32) (main_arg5 : FVec F S_ .f32) (main_arg6 : IVec S4096x4096 32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  let main_v24 : FVec F S_ .f32 := Host.absf main_arg5
  let main_cst_8 : FVec F S_ .f32 := constant S_ .f32 0x7F800000#32
  let main_v25 : IVec S_ 1 := cmpf .olt main_v24 main_cst_8
  let main_c_9 : IVec S_ 1 := constantI S_ 1 1#1
  let main_v26 : IVec S_ 1 := (fun x v => Host.reduce IntOp.andi x v reducesTo_S_S_d h_S_) main_v25 main_c_9
  let main_v27 : IVec S_ 1 := andi main_v23 main_v26
  let main_c_10 : IVec S_ 32 := constantI S_ 32 0#32
  let main_v28 : IVec S4096x4096 32 := broadcastInDim S4096x4096 ![] bcast_S_S4096x4096 main_c_10
  let main_v29 : IVec S4096x4096 1 := cmpi .sge main_arg6 main_v28
  let main_c_11 : IVec S_ 32 := constantI S_ 32 16#32
  let main_v30 : IVec S4096x4096 32 := broadcastInDim S4096x4096 ![] bcast_S_S4096x4096 main_c_11
  let main_v31 : IVec S4096x4096 1 := cmpi .slt main_arg6 main_v30
  let main_v32 : IVec S4096x4096 1 := andi main_v29 main_v31
  let main_c_12 : IVec S_ 1 := constantI S_ 1 1#1
  fn_part2 (F := F) main_v27 main_v32 main_c_12

def fn {F : FTy → Type} [FloatOps F] (main_arg0 : FVec F S8192x4096 .f32) (main_arg1 : FVec F S4096x64 .f32) (main_arg2 : FVec F S4096 .f32) (main_arg3 : FVec F S16x4096 .f32) (main_arg4 : FVec F S4096x16 .f32) (main_arg5 : FVec F S_ .f32) (main_arg6 : IVec S4096x4096 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_arg5 main_arg6 main_v13 main_v16
-- ==== Kernel.lean ====
abbrev S8192x4096 : Shape := ⟨2, ![8192, 4096]⟩
abbrev S4096x64 : Shape := ⟨2, ![4096, 64]⟩
abbrev S4096 : Shape := ⟨1, ![4096]⟩
abbrev S16x4096 : Shape := ⟨2, ![16, 4096]⟩
abbrev S4096x16 : Shape := ⟨2, ![4096, 16]⟩
abbrev S_ : Shape := ⟨0, ![]⟩
abbrev S4096x4096 : Shape := ⟨2, ![4096, 4096]⟩
abbrev S1x4096 : Shape := ⟨2, ![1, 4096]⟩
abbrev S2048x128 : Shape := ⟨2, ![2048, 128]⟩
abbrev S1024x128 : Shape := ⟨2, ![1024, 128]⟩
abbrev S1024x64 : Shape := ⟨2, ![1024, 64]⟩
abbrev S16x128 : Shape := ⟨2, ![16, 128]⟩
abbrev S1024x16 : Shape := ⟨2, ![1024, 16]⟩
abbrev S1x1024 : Shape := ⟨2, ![1, 1024]⟩
abbrev S2048x1024 : Shape := ⟨2, ![2048, 1024]⟩
abbrev S2048x16 : Shape := ⟨2, ![2048, 16]⟩
abbrev S64x128 : Shape := ⟨2, ![64, 128]⟩
abbrev S128x1024 : Shape := ⟨2, ![128, 1024]⟩
abbrev S128x16 : Shape := ⟨2, ![128, 16]⟩
abbrev S16x1024 : Shape := ⟨2, ![16, 1024]⟩

abbrev nBuf : Space → Nat
  | .hbm => 14
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S4096x64, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S_, .f32⟩
  | .hbm, ⟨6, _⟩ => ⟨S4096x4096, .i32⟩
  | .hbm, ⟨7, _⟩ => ⟨S8192x4096, .bf16⟩
  | .hbm, ⟨8, _⟩ => ⟨S1x4096, .f32⟩
  | .hbm, ⟨9, _⟩ => ⟨S_, .f32⟩
  | .hbm, ⟨10, _⟩ => ⟨S_, .f32⟩
  | .hbm, ⟨11, _⟩ => ⟨S4096x16, .f32⟩
  | .hbm, ⟨12, _⟩ => ⟨S4096x16, .f32⟩
  | .hbm, ⟨13, _⟩ => ⟨S8192x4096, .f32⟩
  | .local _ .vmem, ⟨0, _⟩ => ⟨S2048x128, .bf16⟩
  | .local _ .vmem, ⟨1, _⟩ => ⟨S2048x128, .bf16⟩
  | .local _ .vmem, ⟨2, _⟩ => ⟨S1024x128, .i32⟩
  | .local _ .vmem, ⟨3, _⟩ => ⟨S1024x128, .i32⟩
  | .local _ .vmem, ⟨4, _⟩ => ⟨S1024x64, .f32⟩
  | .local _ .vmem, ⟨5, _⟩ => ⟨S1024x64, .f32⟩
  | .local _ .vmem, ⟨6, _⟩ => ⟨S16x128, .f32⟩
  | .local _ .vmem, ⟨7, _⟩ => ⟨S16x128, .f32⟩
  | .local _ .vmem, ⟨8, _⟩ => ⟨S1024x16, .f32⟩
  | .local _ .vmem, ⟨9, _⟩ => ⟨S1024x16, .f32⟩
  | .local _ .vmem, ⟨10, _⟩ => ⟨S1x1024, .f32⟩
  | .local _ .vmem, ⟨11, _⟩ => ⟨S1x1024, .f32⟩
  | .local _ .vmem, ⟨12, _⟩ => ⟨S2048x1024, .f32⟩
  | .local _ .vmem, ⟨13, _⟩ => ⟨S2048x1024, .f32⟩
  | .local _ .vmem, ⟨14, _⟩ => ⟨S2048x1024, .f32⟩
  | .local _ .vmem, ⟨15, _⟩ => ⟨S2048x16, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 32], ![false, false, false]⟩

def k0_cond2 (i : grid0.Coords) : BitVec 1 :=
  let arg2 : BitVec 32 := BitVec.ofNat 32 (i 2).val
  let c31_i32 : BitVec 32 := 31#32
  let v138 : BitVec 1 := Scalar.cmpi .eq arg2 c31_i32
  let v139 : BitVec 32 := Scalar.extui v138
  let c0_i32_62 : BitVec 32 := 0#32
  let v140 : BitVec 1 := Scalar.cmpi .ne v139 c0_i32_62
  v140

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S2048x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  bitsLt_bf16_f32 : FTy.bits .bf16 < FTy.bits .f32
  shapeCasts_S4096_S1x4096 : S4096.ShapeCasts S1x4096
  bcast_S_S4096x16 : S_.BroadcastsInDim S4096x16 (![] : Fin 0 → Fin S4096x16.rank)
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1024x128_S1024x128_0_0 : ∀ a, (![0, 0] : Fin 2 → Nat) a + S1024x128.size a ≤ S1024x128.size a
  h_S1024x128 : 0 < S1024x128.numel
  iota_S64x128_d0_w32 : S64x128.Iotas .tc 32 [0]
  iota_S64x128_d1_w32 : S64x128.Iotas .tc 32 [1]
  natLt_1_32 : 1 < 32
  inb_S1024x64_S1024x64_0_0 : ∀ a, (![0, 0] : Fin 2 → Nat) a + S1024x64.size a ≤ S1024x64.size a
  h_S1024x64 : 0 < S1024x64.numel
  transposes_S1024x128_p1_0_S128x1024 : S1024x128.Transposes [1, 0] S128x1024
  inb_S16x128_S16x128_0_0 : ∀ a, (![0, 0] : Fin 2 → Nat) a + S16x128.size a ≤ S16x128.size a
  h_S16x128 : 0 < S16x128.numel
  transposes_S16x128_p1_0_S128x16 : S16x128.Transposes [1, 0] S128x16
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  transposes_S1024x16_p1_0_S16x1024 : S1024x16.Transposes [1, 0] S16x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S1024x64_S64x128_S1024x128_1_0_0_1_n_n_wf : DotDims.WF S1024x64 S64x128 S1024x128 [1] [0] [0] [1] [] []
  dot_S2048x128_S128x1024_S2048x1024_1_0_0_1_n_n_wf : DotDims.WF S2048x128 S128x1024 S2048x1024 [1] [0] [0] [1] [] []
  dot_S2048x128_S128x16_S2048x16_1_0_0_1_n_n_wf : DotDims.WF S2048x128 S128x16 S2048x16 [1] [0] [0] [1] [] []
  dot_S2048x16_S16x1024_S2048x1024_1_0_0_1_n_n_wf : DotDims.WF S2048x16 S16x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S8192x4096.size a
  hwx0_0 : ∀ i : grid0.Coords, EltTy.bits .bf16 = 32 ∨ (Rect.block (s := S8192x4096) S2048x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S4096x4096.size a
  hwx0_1 : ∀ i : grid0.Coords, EltTy.bits .i32 = 32 ∨ (Rect.block (s := S4096x4096) S1024x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S4096x64.size a
  hwx0_2 : ∀ i : grid0.Coords, EltTy.bits .f32 = 32 ∨ (Rect.block (s := S4096x64) S1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x128.size a ≤ S16x4096.size a
  hwx0_3 : ∀ i : grid0.Coords, EltTy.bits .f32 = 32 ∨ (Rect.block (s := S16x4096) S16x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x16.size a ≤ S4096x16.size a
  hwx0_4 : ∀ i : grid0.Coords, EltTy.bits .f32 = 32 ∨ (Rect.block (s := S4096x16) S1024x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .f32 = 32 ∨ (Rect.block (s := S1x4096) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x1024.size a ≤ S8192x4096.size a
  hwx0_6 : ∀ i : grid0.Coords, EltTy.bits .f32 = 32 ∨ (Rect.block (s := S8192x4096) S2048x1024.size (cc0_transform_6 i) (hinb0_6 i)).WholeWords (EltTy.packing .f32)

variable [Facts₀]

def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S2048x128_S128x1024_S2048x1024_1_0_0_1_n_n : DotDims S2048x128 S128x1024 S2048x1024 where
  lhsContracting := [1]
  rhsContracting := [0]
  lhsNonContracting := [0]
  rhsNonContracting := [1]
  lhsBatch := []
  rhsBatch := []
  wf := dot_S2048x128_S128x1024_S2048x1024_1_0_0_1_n_n_wf
def dot_S2048x128_S128x16_S2048x16_1_0_0_1_n_n : DotDims S2048x128 S128x16 S2048x16 where
  lhsContracting := [1]
  rhsContracting := [0]
  lhsNonContracting := [0]
  rhsNonContracting := [1]
  lhsBatch := []
  rhsBatch := []
  wf := dot_S2048x128_S128x16_S2048x16_1_0_0_1_n_n_wf
def dot_S2048x16_S16x1024_S2048x1024_1_0_0_1_n_n : DotDims S2048x16 S16x1024 S2048x1024 where
  lhsContracting := [1]
  rhsContracting := [0]
  lhsNonContracting := [0]
  rhsNonContracting := [1]
  lhsBatch := []
  rhsBatch := []
  wf := dot_S2048x16_S16x1024_S2048x1024_1_0_0_1_n_n_wf

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S2048x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x64 : Shape := ⟨2, ![4096, 64]⟩
abbrev S4096 : Shape := ⟨1, ![4096]⟩
abbrev S16x4096 : Shape := ⟨2, ![16, 4096]⟩
abbrev S4096x16 : Shape := ⟨2, ![4096, 16]⟩
abbrev S_ : Shape := ⟨0, ![]⟩
abbrev S4096x4096 : Shape := ⟨2, ![4096, 4096]⟩
abbrev S16 : Shape := ⟨1, ![16]⟩
abbrev S4096x4096x1 : Shape := ⟨3, ![4096, 4096, 1]⟩
abbrev S4096x64x64 : Shape := ⟨3, ![4096, 64, 64]⟩
abbrev S1x4096 : Shape := ⟨2, ![1, 4096]⟩
abbrev S8192x16 : Shape := ⟨2, ![8192, 16]⟩

abbrev nBuf : Space → Nat
  | .hbm => 34
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x64, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S_, .f32⟩
  | .hbm, ⟨6, _⟩ => ⟨S4096x4096, .i32⟩
  | .hbm, ⟨7, _⟩ => ⟨S16, .f32⟩
  | .hbm, ⟨8, _⟩ => ⟨S_, .i32⟩
  | .hbm, ⟨9, _⟩ => ⟨S4096x4096, .i32⟩
  | .hbm, ⟨10, _⟩ => ⟨S4096x4096, .i1⟩
  | .hbm, ⟨11, _⟩ => ⟨S_, .i32⟩
  | .hbm, ⟨12, _⟩ => ⟨S4096x4096, .i32⟩
  | .hbm, ⟨13, _⟩ => ⟨S4096x4096, .i32⟩
  | .hbm, ⟨14, _⟩ => ⟨S4096x4096, .i32⟩
  | .hbm, ⟨15, _⟩ => ⟨S4096x4096x1, .i32⟩
  | .hbm, ⟨16, _⟩ => ⟨S4096x4096, .f32⟩
  | .hbm, ⟨17, _⟩ => ⟨S4096x64x64, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S8192x4096, .f32⟩
  | .hbm, ⟨22, _⟩ => ⟨S1x4096, .f32⟩
  | .hbm, ⟨23, _⟩ => ⟨S8192x4096, .f32⟩
  | .hbm, ⟨24, _⟩ => ⟨S8192x4096, .f32⟩
  | .hbm, ⟨25, _⟩ => ⟨S4096x16, .f32⟩
  | .hbm, ⟨26, _⟩ => ⟨S8192x16, .f32⟩
  | .hbm, ⟨27, _⟩ => ⟨S16x4096, .f32⟩
  | .hbm, ⟨28, _⟩ => ⟨S8192x4096, .f32⟩
  | .hbm, ⟨29, _⟩ => ⟨S_, .f32⟩
  | .hbm, ⟨30, _⟩ => ⟨S_, .f32⟩
  | .hbm, ⟨31, _⟩ => ⟨S8192x4096, .f32⟩
  | .hbm, ⟨32, _⟩ => ⟨S8192x4096, .f32⟩
  | .hbm, ⟨33, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bcast_S4096x64_S4096x64x64_0_1 : S4096x64.BroadcastsInDim S4096x64x64 (![0, 1] : Fin 2 → Fin S4096x64x64.rank)
  shapeCasts_S4096x64x64_S4096x4096 : S4096x64x64.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  transposes_S16x4096_S4096x16_1_0 : S16x4096.Transposes [1, 0] S4096x16
  transposes_S4096x16_S16x4096_1_0 : S4096x16.Transposes [1, 0] S16x4096
  bcast_S_S8192x4096 : S_.BroadcastsInDim S8192x4096 (![] : Fin 0 → Fin S8192x4096.rank)
  gather_S16_S4096x4096x1_S4096x4096_n_0_n_n_0_2_1_wf : GatherDims.WF S16 S4096x4096x1 S4096x4096 [] [0] [] [0] [] 2 ![1]
  dot_S8192x4096_S4096x4096_S8192x4096_1_0_0_1_n_n_wf : DotDims.WF S8192x4096 S4096x4096 S8192x4096 [1] [0] [0] [1] [] []
  dot_S8192x4096_S4096x16_S8192x16_1_0_0_1_n_n_wf : DotDims.WF S8192x4096 S4096x16 S8192x16 [1] [0] [0] [1] [] []
  dot_S8192x16_S16x4096_S8192x4096_1_0_0_1_n_n_wf : DotDims.WF S8192x16 S16x4096 S8192x4096 [1] [0] [0] [1] [] []

variable [Facts₀]

def gather_S16_S4096x4096x1_S4096x4096_n_0_n_n_0_2_1 : GatherDims S16 S4096x4096x1 S4096x4096 where
  offsetDims := []
  collapsedSliceDims := [0]
  operandBatchingDims := []
  startIndicesBatchingDims := []
  startIndexMap := [0]
  indexVectorDim := 2
  sliceSizes := ![1]
  wf := gather_S16_S4096x4096x1_S4096x4096_n_0_n_n_0_2_1_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S4096x16_S8192x16_1_0_0_1_n_n : DotDims S8192x4096 S4096x16 S8192x16 where
  lhsContracting := [1]
  rhsContracting := [0]
  lhsNonContracting := [0]
  rhsNonContracting := [1]
  lhsBatch := []
  rhsBatch := []
  wf := dot_S8192x4096_S4096x16_S8192x16_1_0_0_1_n_n_wf
def dot_S8192x16_S16x4096_S8192x4096_1_0_0_1_n_n : DotDims S8192x16 S16x4096 S8192x4096 where
  lhsContracting := [1]
  rhsContracting := [0]
  lhsNonContracting := [0]
  rhsNonContracting := [1]
  lhsBatch := []
  rhsBatch := []
  wf := dot_S8192x16_S16x4096_S8192x4096_1_0_0_1_n_n_wf

class Facts : Prop extends Facts₀ where

variable [Facts]
-- ==== Proof.KernelBody.lean ====
import proofs.«423903_j62594853372313_2_alg».proof.Proof.Gen.KernelIdeal.Frame
import Idealize.ShloMosaic.Lib.Pipeline.Value
import Idealize.ShloMosaic.Lib.Tactic

/-!
What one grid point does to the two accumulators and to the output block, as three functions
of the point's input blocks, and the three control cases' stores read back as those functions.
-/

noncomputable section

namespace Cert.KernelIdeal.Body

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl

/-- The decoded code tile: the four-level selection tree over the codes' four low bits. -/
def wtile (x1 : Vec F S1024x128 .i32) : FVec F S1024x128 .f32 :=
  k0_pay19 (k0_pay10 x1) (k0_pay11 x1) (k0_pay15 (k0_pay9 x1) (k0_pay12 x1) (k0_pay13 x1))
    (k0_pay16 (k0_pay8 x1) (k0_pay9 x1) (k0_pay14 x1) (FloatOps.ofBits .f32 0xBE3D353F#32))
    (k0_pay17 (k0_pay8 x1) (k0_pay9 x1)) (k0_pay18 (k0_pay8 x1) (k0_pay9 x1))

/-- The base accumulator after a point: what it held plus the x block times the scaled decoded tile. -/
def accStep (k : BitVec 32) (x0 : Vec F S2048x128 .bf16) (x1 : Vec F S1024x128 .i32) (x2 : Vec F S1024x64 .f32)
    (acc : Vec F S2048x1024 .f32) : Vec F S2048x1024 .f32 :=
  k0_pay1 (k0_pay6 x0) (wtile x1) (k0_pay20 k) (k0_pay21 x2) acc

/-- The adapter accumulator after a point: what it held plus the x block times the down block. -/
def laccStep (x0 : Vec F S2048x128 .bf16) (x3 : Vec F S16x128 .f32) (lacc : Vec F S2048x16 .f32) : Vec F S2048x16 .f32 :=
  k0_pay2 (k0_pay6 x0) x3 lacc

/-- The output block at a row's last point: base accumulator plus bias row plus adapter product. -/
def outStep (x4 : Vec F S1024x16 .f32) (lacc : Vec F S2048x16 .f32) (acc : Vec F S2048x1024 .f32) (x5 : Vec F S1x1024 .f32) :
    Vec F S2048x1024 .f32 :=
  k0_pay3 x4 lacc acc x5

theorem soutA0 (c : Dev nD) (i : grid0.Coords) (arg3 : Memref sig .tc .vmem S2048x128 .bf16) (harg3 : arg3.IsWhole) (arg4 : Memref sig .tc .vmem S1024x128 .i32) (harg4 : arg4.IsWhole) (arg5 : Memref sig .tc .vmem S1024x64 .f32) (harg5 : arg5.IsWhole) (arg6 : Memref sig .tc .vmem S16x128 .f32) (harg6 : arg6.IsWhole) (arg7 : Memref sig .tc .vmem S1024x16 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x16 .f32) (harg11 : arg11.IsWhole) (hc0 : cond0_0 i) (hc1 : ¬cond0_1 i) (x0 : Vec F S2048x128 .bf16) (x1 : Vec F S1024x128 .i32) (x2 : Vec F S1024x64 .f32) (x3 : Vec F S16x128 .f32) (x4 : Vec F S1024x16 .f32) (x5 : Vec F S1x1024 .f32) :
    sout0_A_0 c i arg3 harg3 arg4 harg4 arg5 harg5 arg6 harg6 arg7 harg7 arg8 harg8 arg9 harg9 arg10 harg10 arg11 harg11 hc0 hc1 x0 x1 x2 x3 x4 x5 = accStep (BitVec.ofNat 32 (i 2).val) x0 x1 x2 (k0_pay4 (F := F)) := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S2048x1024) hz2]
  simp only [View.readAt_eq_ld, harg3.read_unread, harg4.read_unread, harg5.read_unread, harg6.read_unread, harg7.read_unread, harg8.read_unread, harg10.read_unread, harg11.read_unread, View.ld_unit_zero (S := S2048x128) hz2, View.ld_unit_zero (S := S1024x128) hz2, View.ld_unit_zero (S := S1024x64) hz2, View.ld_unit_zero (S := S16x128) hz2, View.ld_unit_zero (S := S1024x16) hz2, View.ld_unit_zero (S := S1x1024) hz2, View.ld_unit_zero (S := S2048x1024) hz2, View.ld_unit_zero (S := S2048x16) hz2, View.readCov_unit_zero (S := S2048x1024) _ hz2]
  rfl

theorem soutA1 (c : Dev nD) (i : grid0.Coords) (arg3 : Memref sig .tc .vmem S2048x128 .bf16) (harg3 : arg3.IsWhole) (arg4 : Memref sig .tc .vmem S1024x128 .i32) (harg4 : arg4.IsWhole) (arg5 : Memref sig .tc .vmem S1024x64 .f32) (harg5 : arg5.IsWhole) (arg6 : Memref sig .tc .vmem S16x128 .f32) (harg6 : arg6.IsWhole) (arg7 : Memref sig .tc .vmem S1024x16 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x16 .f32) (harg11 : arg11.IsWhole) (hc0 : cond0_0 i) (hc1 : ¬cond0_1 i) (x0 : Vec F S2048x128 .bf16) (x1 : Vec F S1024x128 .i32) (x2 : Vec F S1024x64 .f32) (x3 : Vec F S16x128 .f32) (x4 : Vec F S1024x16 .f32) (x5 : Vec F S1x1024 .f32) :
    sout0_A_1 c i arg3 harg3 arg4 harg4 arg5 harg5 arg6 harg6 arg7 harg7 arg8 harg8 arg9 harg9 arg10 harg10 arg11 harg11 hc0 hc1 x0 x1 x2 x3 x4 x5 = laccStep x0 x3 (k0_pay5 (F := F)) := by
  unfold sout0_A_1
  rw [View.read_writes_eq_canon _ _ _ (scover0_A_1 c i arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S2048x16) hz2]
  simp only [View.readAt_eq_ld, harg3.read_unread, harg4.read_unread, harg5.read_unread, harg6.read_unread, harg7.read_unread, harg8.read_unread, harg10.read_unread, harg11.read_unread, View.ld_unit_zero (S := S2048x128) hz2, View.ld_unit_zero (S := S1024x128) hz2, View.ld_unit_zero (S := S1024x64) hz2, View.ld_unit_zero (S := S16x128) hz2, View.ld_unit_zero (S := S1024x16) hz2, View.ld_unit_zero (S := S1x1024) hz2, View.ld_unit_zero (S := S2048x1024) hz2, View.ld_unit_zero (S := S2048x16) hz2, View.readCov_unit_zero (S := S2048x16) _ hz2]
  rfl

theorem soutB0 (c : Dev nD) (i : grid0.Coords) (arg3 : Memref sig .tc .vmem S2048x128 .bf16) (harg3 : arg3.IsWhole) (arg4 : Memref sig .tc .vmem S1024x128 .i32) (harg4 : arg4.IsWhole) (arg5 : Memref sig .tc .vmem S1024x64 .f32) (harg5 : arg5.IsWhole) (arg6 : Memref sig .tc .vmem S16x128 .f32) (harg6 : arg6.IsWhole) (arg7 : Memref sig .tc .vmem S1024x16 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x16 .f32) (harg11 : arg11.IsWhole) (hc0 : ¬cond0_0 i) (hc1 : ¬cond0_1 i) (x0 : Vec F S2048x128 .bf16) (x1 : Vec F S1024x128 .i32) (x2 : Vec F S1024x64 .f32) (x3 : Vec F S16x128 .f32) (x4 : Vec F S1024x16 .f32) (x5 : Vec F S1x1024 .f32) (xs0 : Vec F S2048x1024 .f32) (xs1 : Vec F S2048x16 .f32) :
    sout0_B_0 c i arg3 harg3 arg4 harg4 arg5 harg5 arg6 harg6 arg7 harg7 arg8 harg8 arg9 harg9 arg10 harg10 arg11 harg11 hc0 hc1 x0 x1 x2 x3 x4 x5 xs0 xs1 = accStep (BitVec.ofNat 32 (i 2).val) x0 x1 x2 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero (S := S2048x1024) hz2]
  simp only [View.readAt_eq_ld, harg3.read_unread, harg4.read_unread, harg5.read_unread, harg6.read_unread, harg7.read_unread, harg8.read_unread, harg10.read_unread, harg11.read_unread, View.ld_unit_zero (S := S2048x128) hz2, View.ld_unit_zero (S := S1024x128) hz2, View.ld_unit_zero (S := S1024x64) hz2, View.ld_unit_zero (S := S16x128) hz2, View.ld_unit_zero (S := S1024x16) hz2, View.ld_unit_zero (S := S1x1024) hz2, View.ld_unit_zero (S := S2048x1024) hz2, View.ld_unit_zero (S := S2048x16) hz2]
  rfl

theorem soutB1 (c : Dev nD) (i : grid0.Coords) (arg3 : Memref sig .tc .vmem S2048x128 .bf16) (harg3 : arg3.IsWhole) (arg4 : Memref sig .tc .vmem S1024x128 .i32) (harg4 : arg4.IsWhole) (arg5 : Memref sig .tc .vmem S1024x64 .f32) (harg5 : arg5.IsWhole) (arg6 : Memref sig .tc .vmem S16x128 .f32) (harg6 : arg6.IsWhole) (arg7 : Memref sig .tc .vmem S1024x16 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x16 .f32) (harg11 : arg11.IsWhole) (hc0 : ¬cond0_0 i) (hc1 : ¬cond0_1 i) (x0 : Vec F S2048x128 .bf16) (x1 : Vec F S1024x128 .i32) (x2 : Vec F S1024x64 .f32) (x3 : Vec F S16x128 .f32) (x4 : Vec F S1024x16 .f32) (x5 : Vec F S1x1024 .f32) (xs0 : Vec F S2048x1024 .f32) (xs1 : Vec F S2048x16 .f32) :
    sout0_B_1 c i arg3 harg3 arg4 harg4 arg5 harg5 arg6 harg6 arg7 harg7 arg8 harg8 arg9 harg9 arg10 harg10 arg11 harg11 hc0 hc1 x0 x1 x2 x3 x4 x5 xs0 xs1 = laccStep x0 x3 xs1 := by
  unfold sout0_B_1
  rw [View.read_writes_eq_canon _ _ _ (scover0_B_1 c i arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero (S := S2048x16) hz2]
  simp only [View.readAt_eq_ld, harg3.read_unread, harg4.read_unread, harg5.read_unread, harg6.read_unread, harg7.read_unread, harg8.read_unread, harg10.read_unread, harg11.read_unread, View.ld_unit_zero (S := S2048x128) hz2, View.ld_unit_zero (S := S1024x128) hz2, View.ld_unit_zero (S := S1024x64) hz2, View.ld_unit_zero (S := S16x128) hz2, View.ld_unit_zero (S := S1024x16) hz2, View.ld_unit_zero (S := S1x1024) hz2, View.ld_unit_zero (S := S2048x1024) hz2, View.ld_unit_zero (S := S2048x16) hz2]
  rfl

theorem soutC0 (c : Dev nD) (i : grid0.Coords) (arg3 : Memref sig .tc .vmem S2048x128 .bf16) (harg3 : arg3.IsWhole) (arg4 : Memref sig .tc .vmem S1024x128 .i32) (harg4 : arg4.IsWhole) (arg5 : Memref sig .tc .vmem S1024x64 .f32) (harg5 : arg5.IsWhole) (arg6 : Memref sig .tc .vmem S16x128 .f32) (harg6 : arg6.IsWhole) (arg7 : Memref sig .tc .vmem S1024x16 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x16 .f32) (harg11 : arg11.IsWhole) (hc0 : ¬cond0_0 i) (hc1 : cond0_1 i) (x0 : Vec F S2048x128 .bf16) (x1 : Vec F S1024x128 .i32) (x2 : Vec F S1024x64 .f32) (x3 : Vec F S16x128 .f32) (x4 : Vec F S1024x16 .f32) (x5 : Vec F S1x1024 .f32) (xs0 : Vec F S2048x1024 .f32) (xs1 : Vec F S2048x16 .f32) :
    sout0_C_0 c i arg3 harg3 arg4 harg4 arg5 harg5 arg6 harg6 arg7 harg7 arg8 harg8 arg9 harg9 arg10 harg10 arg11 harg11 hc0 hc1 x0 x1 x2 x3 x4 x5 xs0 xs1 = accStep (BitVec.ofNat 32 (i 2).val) x0 x1 x2 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero (S := S2048x1024) hz2]
  simp only [View.readAt_eq_ld, harg3.read_unread, harg4.read_unread, harg5.read_unread, harg6.read_unread, harg7.read_unread, harg8.read_unread, harg10.read_unread, harg11.read_unread, View.ld_unit_zero (S := S2048x128) hz2, View.ld_unit_zero (S := S1024x128) hz2, View.ld_unit_zero (S := S1024x64) hz2, View.ld_unit_zero (S := S16x128) hz2, View.ld_unit_zero (S := S1024x16) hz2, View.ld_unit_zero (S := S1x1024) hz2, View.ld_unit_zero (S := S2048x1024) hz2, View.ld_unit_zero (S := S2048x16) hz2]
  rfl

theorem soutC1 (c : Dev nD) (i : grid0.Coords) (arg3 : Memref sig .tc .vmem S2048x128 .bf16) (harg3 : arg3.IsWhole) (arg4 : Memref sig .tc .vmem S1024x128 .i32) (harg4 : arg4.IsWhole) (arg5 : Memref sig .tc .vmem S1024x64 .f32) (harg5 : arg5.IsWhole) (arg6 : Memref sig .tc .vmem S16x128 .f32) (harg6 : arg6.IsWhole) (arg7 : Memref sig .tc .vmem S1024x16 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x16 .f32) (harg11 : arg11.IsWhole) (hc0 : ¬cond0_0 i) (hc1 : cond0_1 i) (x0 : Vec F S2048x128 .bf16) (x1 : Vec F S1024x128 .i32) (x2 : Vec F S1024x64 .f32) (x3 : Vec F S16x128 .f32) (x4 : Vec F S1024x16 .f32) (x5 : Vec F S1x1024 .f32) (xs0 : Vec F S2048x1024 .f32) (xs1 : Vec F S2048x16 .f32) :
    sout0_C_1 c i arg3 harg3 arg4 harg4 arg5 harg5 arg6 harg6 arg7 harg7 arg8 harg8 arg9 harg9 arg10 harg10 arg11 harg11 hc0 hc1 x0 x1 x2 x3 x4 x5 xs0 xs1 = laccStep x0 x3 xs1 := by
  unfold sout0_C_1
  rw [View.read_writes_eq_canon _ _ _ (scover0_C_1 c i arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero (S := S2048x16) hz2]
  simp only [View.readAt_eq_ld, harg3.read_unread, harg4.read_unread, harg5.read_unread, harg6.read_unread, harg7.read_unread, harg8.read_unread, harg10.read_unread, harg11.read_unread, View.ld_unit_zero (S := S2048x128) hz2, View.ld_unit_zero (S := S1024x128) hz2, View.ld_unit_zero (S := S1024x64) hz2, View.ld_unit_zero (S := S16x128) hz2, View.ld_unit_zero (S := S1024x16) hz2, View.ld_unit_zero (S := S1x1024) hz2, View.ld_unit_zero (S := S2048x1024) hz2, View.ld_unit_zero (S := S2048x16) hz2]
  rfl

theorem outC6 (c : Dev nD) (i : grid0.Coords) (arg3 : Memref sig .tc .vmem S2048x128 .bf16) (harg3 : arg3.IsWhole) (arg4 : Memref sig .tc .vmem S1024x128 .i32) (harg4 : arg4.IsWhole) (arg5 : Memref sig .tc .vmem S1024x64 .f32) (harg5 : arg5.IsWhole) (arg6 : Memref sig .tc .vmem S16x128 .f32) (harg6 : arg6.IsWhole) (arg7 : Memref sig .tc .vmem S1024x16 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S2048x16 .f32) (harg11 : arg11.IsWhole) (hc0 : ¬cond0_0 i) (hc1 : cond0_1 i) (x0 : Vec F S2048x128 .bf16) (x1 : Vec F S1024x128 .i32) (x2 : Vec F S1024x64 .f32) (x3 : Vec F S16x128 .f32) (x4 : Vec F S1024x16 .f32) (x5 : Vec F S1x1024 .f32) (xs0 : Vec F S2048x1024 .f32) (xs1 : Vec F S2048x16 .f32) :
    out0_C_6 c i arg3 harg3 arg4 harg4 arg5 harg5 arg6 harg6 arg7 harg7 arg8 harg8 arg9 harg9 arg10 harg10 arg11 harg11 hc0 hc1 x0 x1 x2 x3 x4 x5 xs0 xs1 = outStep x4 (laccStep x0 x3 xs1) (accStep (BitVec.ofNat 32 (i 2).val) x0 x1 x2 xs0) x5 := by
  unfold out0_C_6
  rw [View.read_writes_eq_canon _ _ _ (cover0_C_6 c i arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero (S := S2048x1024) hz2]
  simp only [View.readAt_eq_ld, harg3.read_unread, harg4.read_unread, harg5.read_unread, harg6.read_unread, harg7.read_unread, harg8.read_unread, harg10.read_unread, harg11.read_unread, View.ld_unit_zero (S := S2048x128) hz2, View.ld_unit_zero (S := S1024x128) hz2, View.ld_unit_zero (S := S1024x64) hz2, View.ld_unit_zero (S := S16x128) hz2, View.ld_unit_zero (S := S1024x16) hz2, View.ld_unit_zero (S := S1x1024) hz2, View.ld_unit_zero (S := S2048x1024) hz2, View.ld_unit_zero (S := S2048x16) hz2]
  rw [View.readCov_unit_zero (S := S2048x16) _ hz2, View.readCov_unit_zero (S := S2048x1024) _ hz2]
  rfl

end Cert.KernelIdeal.Body

end
-- ==== Proof.Spec.lean ====
import Idealize.ShloMosaic.PureOps.Ideal
import Idealize.ShloMosaic.Lib.ValueIdx
import Mathlib.Algebra.BigOperators.Fin

/-!
The function both programs compute, written once over the argument arrays.

A weight entry is a code word's table value times the scale of its group of 64 columns;
the base product contracts the 4096 columns; the adapter contracts first the 4096 columns
against the down matrix and then the 16 ranks against the up matrix, scaled by `sc`.
Two arrangements are stated: the reference's (one sum over all columns, the scale applied
after the rank sum) and the kernel's (32 column blocks of 128, the scale inside the rank sum).
-/

noncomputable section

namespace Cert.QL

open Idealize.ShloMosaic Idealize.ShloMosaic.ValueIdx

abbrev SX : Shape := ⟨2, ![8192, 4096]⟩
abbrev SA : Shape := ⟨2, ![4096, 64]⟩
abbrev SB : Shape := ⟨1, ![4096]⟩
abbrev SD : Shape := ⟨2, ![16, 4096]⟩
abbrev SU : Shape := ⟨2, ![4096, 16]⟩
abbrev S0 : Shape := ⟨0, ![]⟩
abbrev SQ : Shape := ⟨2, ![4096, 4096]⟩

/-- The sixteen code words' f32 patterns. -/
def nf4w : Fin 16 → BitVec 32 := fun
  | 0 => 0xBF800000#32 | 1 => 0xBF3239B1#32 | 2 => 0xBF066B30#32 | 3 => 0xBECA32A0#32
  | 4 => 0xBE91A24D#32 | 5 => 0xBE3D353F#32 | 6 => 0xBDBA7871#32 | 7 => 0x00000000#32
  | 8 => 0x3DA2FAFF#32 | 9 => 0x3E24CAE3#32 | 10 => 0x3E7C04DD#32 | 11 => 0x3EAD033A#32
  | 12 => 0x3EE1A4B8#32 | 13 => 0x3F1007AB#32 | 14 => 0x3F3913B3#32 | 15 => 0x3F800000#32
  | _ => 0#32

/-- The value of a code word: the table entry at its low four bits. -/
def dq (w : BitVec 32) : EReal := Ideal.ofBits .f32 (nf4w ⟨w.toNat % 16, Nat.mod_lt _ (by decide)⟩)

/-- Column `c` of column block `k` (wrapped, so that it is total in `k`). -/
def colOf (k : Nat) (c : Fin 128) : Fin 4096 := ⟨(128 * k + c.val) % 4096, Nat.mod_lt _ (by decide)⟩

/-- The group of 64 columns a column lies in. -/
def grpOf (j : Fin 4096) : Fin 64 := ⟨j.val / 64, by have := j.isLt; omega⟩

/-- The dequantized weight at row `n`, column `j`. -/
def wt (am : SA.Idx → EReal) (q : SQ.Idx → BitVec 32) (n j : Fin 4096) : EReal :=
  dq (q (ix2 n j)) * am (ix2 n (grpOf j))

/-- The adapter's scale alpha / 16, the host quotient both programs take. -/
def scOf (al : S0.Idx → EReal) : EReal := Ideal.div (al ix0) (Ideal.ofBits .f32 0x41800000#32)

/-- The reference's arrangement. -/
def G (x : SX.Idx → EReal) (am : SA.Idx → EReal) (b : SB.Idx → EReal) (ld : SD.Idx → EReal) (lu : SU.Idx → EReal)
    (sc : EReal) (q : SQ.Idx → BitVec 32) : SX.Idx → EReal := fun i =>
  ((∑ j : Fin 4096, x (ix2 (i 0) j) * wt am q (i 1) j) + b (ix1 (i 1)))
    + (∑ s : Fin 16, (∑ j : Fin 4096, x (ix2 (i 0) j) * ld (ix2 s j)) * lu (ix2 (i 1) s)) * sc

/-- The base product accumulated over the first `K` column blocks. -/
def baseUpTo (x : SX.Idx → EReal) (am : SA.Idx → EReal) (q : SQ.Idx → BitVec 32) (K : Nat) (r : Fin 8192) (n : Fin 4096) : EReal :=
  ∑ k ∈ Finset.range K, ∑ c : Fin 128, x (ix2 r (colOf k c)) * wt am q n (colOf k c)

/-- The adapter's hidden product accumulated over the first `K` column blocks. -/
def hidUpTo (x : SX.Idx → EReal) (ld : SD.Idx → EReal) (K : Nat) (r : Fin 8192) (s : Fin 16) : EReal :=
  ∑ k ∈ Finset.range K, ∑ c : Fin 128, x (ix2 r (colOf k c)) * ld (ix2 s (colOf k c))

/-- The kernel's arrangement. -/
def GK (x : SX.Idx → EReal) (am : SA.Idx → EReal) (b : SB.Idx → EReal) (ld : SD.Idx → EReal) (lu : SU.Idx → EReal)
    (sc : EReal) (q : SQ.Idx → BitVec 32) : SX.Idx → EReal := fun i =>
  (baseUpTo x am q 32 (i 0) (i 1) + b (ix1 (i 1)))
    + ∑ s : Fin 16, hidUpTo x ld 32 (i 0) s * (lu (ix2 (i 1) s) * sc)

end Cert.QL

end
-- ==== Proof.KernelPayA.lean ====
import proofs.«423903_j62594853372313_2_alg».proof.Proof.KernelBody
import proofs.«423903_j62594853372313_2_alg».proof.Proof.Spec
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

/-!
The base accumulator's step read at an entry, at the extended reals: the selection tree over
a code's four low bits is the table value of the code; the one-hot product picks, for column
`c` of column block `k`, the scale of group `2k + c / 64`; the two matrix products are plain sums.
-/

noncomputable section

namespace Cert.KernelIdeal.Body

open Cert.KernelIdeal Cert.KernelIdeal.Gen Idealize.ShloMosaic Idealize.ShloMosaic.ValueIdx

/-! ## The selection tree -/

/-- The four-level selection tree as a function of the code's masked word: bit 3 chooses between the two
    halves of the table, bit 2 between their quarters, bit 1 between the pairs, bit 0 inside a pair. -/
private def tree (a : BitVec 32) : EReal :=
  let b0 := IntOp.andi a 1#32
  let b1 := IntOp.andi (IntOp.shrsi .vector a 1#32) 1#32
  let b2 := IntOp.andi (IntOp.shrsi .vector a 2#32) 1#32
  let b3 := IntOp.andi (IntOp.shrsi .vector a 3#32) 1#32
  let e0 := IntOp.cmpi .eq b0 1#32
  let e1 := IntOp.cmpi .eq b1 1#32
  let e2 := IntOp.cmpi .eq b2 1#32
  let e3 := IntOp.cmpi .eq b3 1#32
  let t01 := Scalar.select e0 (Ideal.ofBits .f32 0xBF3239B1#32) (Ideal.ofBits .f32 0xBF800000#32)
  let t23 := Scalar.select e0 (Ideal.ofBits .f32 0xBECA32A0#32) (Ideal.ofBits .f32 0xBF066B30#32)
  let t45 := Scalar.select e0 (Ideal.ofBits .f32 0xBE3D353F#32) (Ideal.ofBits .f32 0xBE91A24D#32)
  let t67 := Scalar.select e0 (Ideal.ofBits .f32 0x00000000#32) (Ideal.ofBits .f32 0xBDBA7871#32)
  let t89 := Scalar.select e0 (Ideal.ofBits .f32 0x3E24CAE3#32) (Ideal.ofBits .f32 0x3DA2FAFF#32)
  let tab := Scalar.select e0 (Ideal.ofBits .f32 0x3EAD033A#32) (Ideal.ofBits .f32 0x3E7C04DD#32)
  let tcd := Scalar.select e0 (Ideal.ofBits .f32 0x3F1007AB#32) (Ideal.ofBits .f32 0x3EE1A4B8#32)
  let tef := Scalar.select e0 (Ideal.ofBits .f32 0x3F800000#32) (Ideal.ofBits .f32 0x3F3913B3#32)
  let q0 := Scalar.select e1 t23 t01
  let q1 := Scalar.select e1 t67 t45
  let q2 := Scalar.select e1 tab t89
  let q3 := Scalar.select e1 tef tcd
  Scalar.select e3 (Scalar.select e2 q3 q2) (Scalar.select e2 q1 q0)

/-- The decoded tile at an entry is the tree at the entry's code masked to its four low bits: every operation of
    the tile is elementwise. -/
private theorem wtile_tree (x1 : Vec Ideal S1024x128 .i32) (i : S1024x128.Idx) :
    wtile (F := Ideal) x1 i = tree (IntOp.andi (x1 i) 15#32) := rfl

/-- On each of the sixteen masked words the tree is that word's table entry. -/
private theorem tree_ofNat (j : Nat) (hj : j < 16) :
    tree (BitVec.ofNat 32 j) = Ideal.ofBits .f32 (Cert.QL.nf4w ⟨j, hj⟩) := by
  interval_cases j <;> simp [tree, Scalar.select, IntOp.cmpi, IntOp.andi, IntOp.shrsi, Cert.QL.nf4w]

/-- Masking a word with 15 keeps its value modulo 16. -/
private theorem andi_15 (w : BitVec 32) : IntOp.andi w 15#32 = BitVec.ofNat 32 (w.toNat % 16) := by
  apply BitVec.eq_of_toNat_eq
  show (w &&& 15#32).toNat = _
  rw [BitVec.toNat_and, BitVec.toNat_ofNat, BitVec.toNat_ofNat]
  have h := Nat.and_two_pow_sub_one_eq_mod w.toNat 4
  have h15 : (15 : Nat) % 2 ^ 32 = 2 ^ 4 - 1 := by norm_num
  rw [h15, h]
  have := Nat.mod_lt w.toNat (show 0 < 2 ^ 4 by norm_num)
  omega

/-- The decoded tile at an entry is the table value of the entry's code. -/
private theorem wtile_apply (x1 : Vec Ideal S1024x128 .i32) (n : Fin 1024) (c : Fin 128) :
    wtile (F := Ideal) x1 (ix2 n c) = Cert.QL.dq (x1 (ix2 n c)) := by
  rw [wtile_tree, andi_15]
  exact tree_ofNat _ _

/-! ## The one-hot scale -/

/-- The kernel's floor division by 64: the quotient toward zero, lowered by one where the signs differ and the
    remainder is not zero. -/
private def fdiv64 (x : BitVec 32) : BitVec 32 :=
  let q := IntOp.divsi .vector x 64#32
  let sx := IntOp.subi ((IntOp.cmpi .sgt x 0#32).setWidth 32) ((IntOp.cmpi .slt x 0#32).setWidth 32)
  let sy := Scalar.subi (Scalar.extui (Scalar.cmpi .sgt 64#32 0#32)) (Scalar.extui (Scalar.cmpi .slt 64#32 0#32))
  let ne := IntOp.cmpi .ne sx sy
  let rn := IntOp.cmpi .ne (IntOp.remsi .vector x 64#32) 0#32
  Scalar.select (IntOp.andi ne rn) (IntOp.subi q 1#32) q

/-- The one-hot matrix's entry as a function of the block's word, the row's word and the column's word. -/
private def hot (kw g c : BitVec 32) : EReal :=
  Scalar.select (IntOp.cmpi .eq g (IntOp.addi (fdiv64 c) (Scalar.muli kw 2#32)))
    (Ideal.ofBits .f32 0x3F800000#32) (Ideal.ofBits .f32 0x00000000#32)

/-- The one-hot matrix at an entry: the two iotas read their coordinates. -/
private theorem pay20_hot (kw : BitVec 32) (g : Fin 64) (c : Fin 128) :
    k0_pay20 (F := Ideal) kw (ix2 g c) = hot kw (BitVec.ofNat 32 g.val) (BitVec.ofNat 32 c.val) := by
  have h0 : iota .tc S64x128 32 [0] iota_S64x128_d0_w32 (ix2 g c) = BitVec.ofNat 32 g.val :=
    iota_single_apply .tc S64x128 32 0 _ (ix2 g c)
  have h1 : iota .tc S64x128 32 [1] iota_S64x128_d1_w32 (ix2 g c) = BitVec.ofNat 32 c.val :=
    iota_single_apply .tc S64x128 32 1 _ (ix2 g c)
  show hot kw (iota .tc S64x128 32 [0] iota_S64x128_d0_w32 (ix2 g c))
    (iota .tc S64x128 32 [1] iota_S64x128_d1_w32 (ix2 g c)) = _
  rw [h0, h1]

/-- On a column's word the kernel's floor division is the quotient of the column by 64. -/
private theorem fdiv64_ofNat : ∀ c : Fin 128, fdiv64 (BitVec.ofNat 32 c.val) = BitVec.ofNat 32 (c.val / 64) := by
  decide

/-- The one-hot matrix of column block `k` has a one at row `2k + c / 64` of column `c` and zeros elsewhere. -/
private theorem hot_eq (k : Nat) (hk : k < 32) (g : Fin 64) (c : Fin 128) :
    hot (BitVec.ofNat 32 k) (BitVec.ofNat 32 g.val) (BitVec.ofNat 32 c.val)
      = if g.val = 2 * k + c.val / 64 then (1 : EReal) else 0 := by
  have hc := c.isLt
  have hg := g.isLt
  have hsum : IntOp.addi (fdiv64 (BitVec.ofNat 32 c.val)) (Scalar.muli (BitVec.ofNat 32 k) 2#32)
      = BitVec.ofNat 32 (2 * k + c.val / 64) := by
    rw [fdiv64_ofNat c]
    apply BitVec.eq_of_toNat_eq
    show (BitVec.ofNat 32 (c.val / 64) + BitVec.ofNat 32 k * 2#32).toNat = _
    simp only [BitVec.toNat_add, BitVec.toNat_mul, BitVec.toNat_ofNat]
    omega
  unfold hot
  rw [hsum]
  by_cases h : g.val = 2 * k + c.val / 64
  · have e : IntOp.cmpi .eq (BitVec.ofNat 32 g.val) (BitVec.ofNat 32 (2 * k + c.val / 64)) = 1#1 := by
      rw [h]; simp [IntOp.cmpi]
    rw [if_pos h, e, ValueIdx.select_one]
    exact Ideal.ofBits_one_f32
  · have hne : BitVec.ofNat 32 g.val ≠ BitVec.ofNat 32 (2 * k + c.val / 64) := by
      intro e
      have e' := congrArg BitVec.toNat e
      simp only [BitVec.toNat_ofNat] at e'
      omega
    have e : IntOp.cmpi .eq (BitVec.ofNat 32 g.val) (BitVec.ofNat 32 (2 * k + c.val / 64)) = 0#1 := by
      show BitVec.ofBool (BitVec.ofNat 32 g.val == BitVec.ofNat 32 (2 * k + c.val / 64)) = 0#1
      rw [beq_eq_false_iff_ne.mpr hne]; rfl
    rw [if_neg h, e, ValueIdx.select_zero]
    exact Ideal.ofBits_zero_f32

/-! ## The two matrix products -/

private theorem lhs_scale_0 (i : S1024x128.Idx) (q : dot_S1024x64_S64x128_S1024x128_1_0_0_1_n_n.contr.Idx) :
    (dot_S1024x64_S64x128_S1024x128_1_0_0_1_n_n.lhsIdx i q 0).val = (i 0).val := by
  unfold DotDims.lhsIdx
  rw [dif_neg (show ¬(0 : Fin S1024x64.rank) ∈ dot_S1024x64_S64x128_S1024x128_1_0_0_1_n_n.lhsBatch by decide), dif_pos (show (0 : Fin S1024x64.rank) ∈ dot_S1024x64_S64x128_S1024x128_1_0_0_1_n_n.lhsNonContracting by decide)]
  rfl
private theorem lhs_scale_1 (i : S1024x128.Idx) (q : dot_S1024x64_S64x128_S1024x128_1_0_0_1_n_n.contr.Idx) :
    (dot_S1024x64_S64x128_S1024x128_1_0_0_1_n_n.lhsIdx i q 1).val = (q ⟨0, by decide⟩).val :=
  dot_S1024x64_S64x128_S1024x128_1_0_0_1_n_n.lhsIdx_val_of_single rfl i q
private theorem rhs_scale_0 (i : S1024x128.Idx) (q : dot_S1024x64_S64x128_S1024x128_1_0_0_1_n_n.contr.Idx) :
    (dot_S1024x64_S64x128_S1024x128_1_0_0_1_n_n.rhsIdx i q 0).val = (q ⟨0, by decide⟩).val :=
  dot_S1024x64_S64x128_S1024x128_1_0_0_1_n_n.rhsIdx_val_of_single rfl i q
private theorem rhs_scale_1 (i : S1024x128.Idx) (q : dot_S1024x64_S64x128_S1024x128_1_0_0_1_n_n.contr.Idx) :
    (dot_S1024x64_S64x128_S1024x128_1_0_0_1_n_n.rhsIdx i q 1).val = (i 1).val := by
  unfold DotDims.rhsIdx
  rw [dif_neg (show ¬(1 : Fin S64x128.rank) ∈ dot_S1024x64_S64x128_S1024x128_1_0_0_1_n_n.rhsBatch by decide), dif_pos (show (1 : Fin S64x128.rank) ∈ dot_S1024x64_S64x128_S1024x128_1_0_0_1_n_n.rhsNonContracting by decide)]
  rfl

/-- The 1024×64 by 64×128 product into the zero splat, at an entry: the sum over the 64 contracted positions. -/
private theorem mm_scale_apply (A : FVec Ideal S1024x64 .bf16) (B : FVec Ideal S64x128 .bf16) (n : Fin 1024) (c : Fin 128) :
    matmul dot_S1024x64_S64x128_S1024x128_1_0_0_1_n_n none A B (constant (F := Ideal) S1024x128 .f32 0x00000000#32) (ix2 n c)
      = ∑ g : Fin 64, A (ix2 n g) * B (ix2 g c) := by
  show FloatOps.matmul dot_S1024x64_S64x128_S1024x128_1_0_0_1_n_n none A B (constant (F := Ideal) S1024x128 .f32 0x00000000#32) (ix2 n c) = _
  rw [Ideal.matmul_constant_zero_apply, ← Equiv.sum_comp (contrEquiv1 dot_S1024x64_S64x128_S1024x128_1_0_0_1_n_n 64 rfl rfl).symm]
  refine Finset.sum_congr rfl fun g _ => ?_
  have hk := contrEquiv1_symm_val dot_S1024x64_S64x128_S1024x128_1_0_0_1_n_n 64 rfl rfl g
  have el : dot_S1024x64_S64x128_S1024x128_1_0_0_1_n_n.lhsIdx (ix2 n c) ((contrEquiv1 dot_S1024x64_S64x128_S1024x128_1_0_0_1_n_n 64 rfl rfl).symm g) = ix2 n g := funext fun a => Fin.ext (by
    match a with
    | ⟨0, _⟩ => exact lhs_scale_0 _ _
    | ⟨1, _⟩ => exact (lhs_scale_1 _ _).trans hk)
  have er : dot_S1024x64_S64x128_S1024x128_1_0_0_1_n_n.rhsIdx (ix2 n c) ((contrEquiv1 dot_S1024x64_S64x128_S1024x128_1_0_0_1_n_n 64 rfl rfl).symm g) = ix2 g c := funext fun a => Fin.ext (by
    match a with
    | ⟨0, _⟩ => exact (rhs_scale_0 _ _).trans hk
    | ⟨1, _⟩ => exact rhs_scale_1 _ _)
  rw [el, er]

private theorem lhs_outer_0 (i : S2048x1024.Idx) (q : dot_S2048x128_S128x1024_S2048x1024_1_0_0_1_n_n.contr.Idx) :
    (dot_S2048x128_S128x1024_S2048x1024_1_0_0_1_n_n.lhsIdx i q 0).val = (i 0).val := by
  unfold DotDims.lhsIdx
  rw [dif_neg (show ¬(0 : Fin S2048x128.rank) ∈ dot_S2048x128_S128x1024_S2048x1024_1_0_0_1_n_n.lhsBatch by decide), dif_pos (show (0 : Fin S2048x128.rank) ∈ dot_S2048x128_S128x1024_S2048x1024_1_0_0_1_n_n.lhsNonContracting by decide)]
  rfl
private theorem lhs_outer_1 (i : S2048x1024.Idx) (q : dot_S2048x128_S128x1024_S2048x1024_1_0_0_1_n_n.contr.Idx) :
    (dot_S2048x128_S128x1024_S2048x1024_1_0_0_1_n_n.lhsIdx i q 1).val = (q ⟨0, by decide⟩).val :=
  dot_S2048x128_S128x1024_S2048x1024_1_0_0_1_n_n.lhsIdx_val_of_single rfl i q
private theorem rhs_outer_0 (i : S2048x1024.Idx) (q : dot_S2048x128_S128x1024_S2048x1024_1_0_0_1_n_n.contr.Idx) :
    (dot_S2048x128_S128x1024_S2048x1024_1_0_0_1_n_n.rhsIdx i q 0).val = (q ⟨0, by decide⟩).val :=
  dot_S2048x128_S128x1024_S2048x1024_1_0_0_1_n_n.rhsIdx_val_of_single rfl i q
private theorem rhs_outer_1 (i : S2048x1024.Idx) (q : dot_S2048x128_S128x1024_S2048x1024_1_0_0_1_n_n.contr.Idx) :
    (dot_S2048x128_S128x1024_S2048x1024_1_0_0_1_n_n.rhsIdx i q 1).val = (i 1).val := by
  unfold DotDims.rhsIdx
  rw [dif_neg (show ¬(1 : Fin S128x1024.rank) ∈ dot_S2048x128_S128x1024_S2048x1024_1_0_0_1_n_n.rhsBatch by decide), dif_pos (show (1 : Fin S128x1024.rank) ∈ dot_S2048x128_S128x1024_S2048x1024_1_0_0_1_n_n.rhsNonContracting by decide)]
  rfl

/-- The 2048×128 by 128×1024 product into the zero splat, at an entry: the sum over the 128 contracted positions. -/
private theorem mm_outer_apply (A : FVec Ideal S2048x128 .bf16) (B : FVec Ideal S128x1024 .bf16) (r : Fin 2048) (n : Fin 1024) :
    matmul dot_S2048x128_S128x1024_S2048x1024_1_0_0_1_n_n none A B (constant (F := Ideal) S2048x1024 .f32 0x00000000#32) (ix2 r n)
      = ∑ c : Fin 128, A (ix2 r c) * B (ix2 c n) := by
  show FloatOps.matmul dot_S2048x128_S128x1024_S2048x1024_1_0_0_1_n_n none A B (constant (F := Ideal) S2048x1024 .f32 0x00000000#32) (ix2 r n) = _
  rw [Ideal.matmul_constant_zero_apply, ← Equiv.sum_comp (contrEquiv1 dot_S2048x128_S128x1024_S2048x1024_1_0_0_1_n_n 128 rfl rfl).symm]
  refine Finset.sum_congr rfl fun c _ => ?_
  have hk := contrEquiv1_symm_val dot_S2048x128_S128x1024_S2048x1024_1_0_0_1_n_n 128 rfl rfl c
  have el : dot_S2048x128_S128x1024_S2048x1024_1_0_0_1_n_n.lhsIdx (ix2 r n) ((contrEquiv1 dot_S2048x128_S128x1024_S2048x1024_1_0_0_1_n_n 128 rfl rfl).symm c) = ix2 r c := funext fun a => Fin.ext (by
    match a with
    | ⟨0, _⟩ => exact lhs_outer_0 _ _
    | ⟨1, _⟩ => exact (lhs_outer_1 _ _).trans hk)
  have er : dot_S2048x128_S128x1024_S2048x1024_1_0_0_1_n_n.rhsIdx (ix2 r n) ((contrEquiv1 dot_S2048x128_S128x1024_S2048x1024_1_0_0_1_n_n 128 rfl rfl).symm c) = ix2 c n := funext fun a => Fin.ext (by
    match a with
    | ⟨0, _⟩ => exact (rhs_outer_0 _ _).trans hk
    | ⟨1, _⟩ => exact rhs_outer_1 _ _)
  rw [el, er]

/-- The scale tile: the product of the scales with the one-hot matrix of column block `k` picks, at row `n` and
    column `c`, the scale of group `2k + c / 64`. Every other term of the sum is a product with zero. -/
private theorem scale_apply (k : Nat) (hk : k < 32) (x2 : Vec Ideal S1024x64 .f32) (n : Fin 1024) (c : Fin 128) :
    matmul dot_S1024x64_S64x128_S1024x128_1_0_0_1_n_n none (k0_pay21 x2) (k0_pay20 (F := Ideal) (BitVec.ofNat 32 k))
        (constant (F := Ideal) S1024x128 .f32 0x00000000#32) (ix2 n c)
      = x2 (ix2 n ⟨2 * k + c.val / 64, by have := c.isLt; omega⟩) := by
  rw [mm_scale_apply]
  have hc := c.isLt
  rw [Finset.sum_eq_single (⟨2 * k + c.val / 64, by omega⟩ : Fin 64)]
  · rw [pay20_hot, hot_eq k hk, if_pos rfl, mul_one]
    rfl
  · intro g _ hg
    rw [pay20_hot, hot_eq k hk, if_neg (fun e => hg (Fin.ext e)), mul_zero]
  · intro h; exact absurd (Finset.mem_univ _) h

/-! ## The step -/

/-- Entry (r, n) of the base accumulator after the point of column block `k`: what it held plus the sum over the block's
    128 columns of the x entry times the dequantized weight (the code's table value times its group's scale). -/
theorem accStep_apply (k : Nat) (hk : k < 32) (x0 : Vec Ideal S2048x128 .bf16) (x1 : Vec Ideal S1024x128 .i32) (x2 : Vec Ideal S1024x64 .f32)
    (acc : Vec Ideal S2048x1024 .f32) (r : Fin 2048) (n : Fin 1024) :
    accStep (F := Ideal) (BitVec.ofNat 32 k) x0 x1 x2 acc (ix2 r n)
      = acc (ix2 r n) + ∑ c : Fin 128, x0 (ix2 r c) * (Cert.QL.dq (x1 (ix2 n c)) * x2 (ix2 n ⟨2 * k + c.val / 64, by have := c.isLt; omega⟩)) := by
  unfold accStep k0_pay1 k0_pay6
  dsimp only
  rw [shapeCast_self, shapeCast_self]
  refine (congrArg (acc (ix2 r n) + ·) (mm_outer_apply _ _ r n)).trans ?_
  refine congrArg (acc (ix2 r n) + ·) (Finset.sum_congr rfl fun c _ => ?_)
  refine congrArg (x0 (ix2 r c) * ·) ?_
  refine (transpose_ix2_apply _ _ c n).trans ?_
  show wtile x1 (ix2 n c) * matmul dot_S1024x64_S64x128_S1024x128_1_0_0_1_n_n none (k0_pay21 x2) (k0_pay20 (F := Ideal) (BitVec.ofNat 32 k))
      (constant (F := Ideal) S1024x128 .f32 0x00000000#32) (ix2 n c) = _
  rw [wtile_apply, scale_apply k hk]

end Cert.KernelIdeal.Body

end
-- ==== Proof.KernelPayL.lean ====
import proofs.«423903_j62594853372313_2_alg».proof.Proof.KernelBody
import Idealize.ShloMosaic.PureOps.Ideal.Laws
import Idealize.ShloMosaic.Lib.ValueIdx
import Idealize.ShloMosaic.Lib.Pipeline.Value
import Idealize.ShloMosaic.Lib.ValueLayout

/-!
The adapter accumulator's step, the output block and the two zero resets read at an entry, at
the extended reals: matrix products into a zero accumulator are plain sums over the contracted
axis, a transposed operand is read with its coordinates swapped, the bias row is broadcast.
-/

noncomputable section

namespace Cert.KernelIdeal.Body

open Cert.KernelIdeal Cert.KernelIdeal.Gen Idealize.ShloMosaic Idealize.ShloMosaic.ValueIdx

/-! ### The adapter's down product: a [2048,128] × [128,16] block product -/

/-- The left operand's row coordinate is the output's row. -/
private theorem lhs_down_0 (i : S2048x16.Idx) (q : dot_S2048x128_S128x16_S2048x16_1_0_0_1_n_n.contr.Idx) :
    (dot_S2048x128_S128x16_S2048x16_1_0_0_1_n_n.lhsIdx i q 0).val = (i 0).val := by
  unfold DotDims.lhsIdx
  rw [dif_neg (show ¬(0 : Fin S2048x128.rank) ∈ dot_S2048x128_S128x16_S2048x16_1_0_0_1_n_n.lhsBatch by decide),
    dif_pos (show (0 : Fin S2048x128.rank) ∈ dot_S2048x128_S128x16_S2048x16_1_0_0_1_n_n.lhsNonContracting by decide)]
  rfl

/-- The left operand's column coordinate is the contracted one. -/
private theorem lhs_down_1 (i : S2048x16.Idx) (q : dot_S2048x128_S128x16_S2048x16_1_0_0_1_n_n.contr.Idx) :
    (dot_S2048x128_S128x16_S2048x16_1_0_0_1_n_n.lhsIdx i q 1).val = (q ⟨0, by decide⟩).val :=
  dot_S2048x128_S128x16_S2048x16_1_0_0_1_n_n.lhsIdx_val_of_single rfl i q

/-- The right operand's row coordinate is the contracted one. -/
private theorem rhs_down_0 (i : S2048x16.Idx) (q : dot_S2048x128_S128x16_S2048x16_1_0_0_1_n_n.contr.Idx) :
    (dot_S2048x128_S128x16_S2048x16_1_0_0_1_n_n.rhsIdx i q 0).val = (q ⟨0, by decide⟩).val :=
  dot_S2048x128_S128x16_S2048x16_1_0_0_1_n_n.rhsIdx_val_of_single rfl i q

/-- The right operand's column coordinate is the output's column. -/
private theorem rhs_down_1 (i : S2048x16.Idx) (q : dot_S2048x128_S128x16_S2048x16_1_0_0_1_n_n.contr.Idx) :
    (dot_S2048x128_S128x16_S2048x16_1_0_0_1_n_n.rhsIdx i q 1).val = (i 1).val := by
  unfold DotDims.rhsIdx
  rw [dif_neg (show ¬(1 : Fin S128x16.rank) ∈ dot_S2048x128_S128x16_S2048x16_1_0_0_1_n_n.rhsBatch by decide),
    dif_pos (show (1 : Fin S128x16.rank) ∈ dot_S2048x128_S128x16_S2048x16_1_0_0_1_n_n.rhsNonContracting by decide)]
  rfl

/-- The block product into a zero accumulator, at entry (r, s): the sum over the 128 contracted columns. -/
private theorem matmul_down_apply (lhs : FVec Ideal S2048x128 .bf16) (rhs : FVec Ideal S128x16 .bf16) (r : Fin 2048) (s : Fin 16) :
    matmul (F := Ideal) dot_S2048x128_S128x16_S2048x16_1_0_0_1_n_n none lhs rhs (constant (F := Ideal) S2048x16 .f32 0x00000000#32) (ix2 r s)
      = ∑ c : Fin 128, lhs (ix2 r c) * rhs (ix2 c s) := by
  simp only [matmul]
  rw [Ideal.matmul_constant_zero_apply,
    ← Equiv.sum_comp (contrEquiv1 dot_S2048x128_S128x16_S2048x16_1_0_0_1_n_n 128 rfl rfl).symm]
  refine Finset.sum_congr rfl fun k _ => ?_
  have hk := contrEquiv1_symm_val dot_S2048x128_S128x16_S2048x16_1_0_0_1_n_n 128 rfl rfl k
  have el : dot_S2048x128_S128x16_S2048x16_1_0_0_1_n_n.lhsIdx (ix2 r s)
      ((contrEquiv1 dot_S2048x128_S128x16_S2048x16_1_0_0_1_n_n 128 rfl rfl).symm k) = ix2 r k := funext fun a => Fin.ext (by
    match a with
    | ⟨0, _⟩ => exact lhs_down_0 _ _
    | ⟨1, _⟩ => exact (lhs_down_1 _ _).trans hk)
  have er : dot_S2048x128_S128x16_S2048x16_1_0_0_1_n_n.rhsIdx (ix2 r s)
      ((contrEquiv1 dot_S2048x128_S128x16_S2048x16_1_0_0_1_n_n 128 rfl rfl).symm k) = ix2 k s := funext fun a => Fin.ext (by
    match a with
    | ⟨0, _⟩ => exact (rhs_down_0 _ _).trans hk
    | ⟨1, _⟩ => exact rhs_down_1 _ _)
  rw [el, er]

/-! ### The adapter's up product: a [2048,16] × [16,1024] block product -/

/-- The left operand's row coordinate is the output's row. -/
private theorem lhs_up_0 (i : S2048x1024.Idx) (q : dot_S2048x16_S16x1024_S2048x1024_1_0_0_1_n_n.contr.Idx) :
    (dot_S2048x16_S16x1024_S2048x1024_1_0_0_1_n_n.lhsIdx i q 0).val = (i 0).val := by
  unfold DotDims.lhsIdx
  rw [dif_neg (show ¬(0 : Fin S2048x16.rank) ∈ dot_S2048x16_S16x1024_S2048x1024_1_0_0_1_n_n.lhsBatch by decide),
    dif_pos (show (0 : Fin S2048x16.rank) ∈ dot_S2048x16_S16x1024_S2048x1024_1_0_0_1_n_n.lhsNonContracting by decide)]
  rfl

/-- The left operand's column coordinate is the contracted one. -/
private theorem lhs_up_1 (i : S2048x1024.Idx) (q : dot_S2048x16_S16x1024_S2048x1024_1_0_0_1_n_n.contr.Idx) :
    (dot_S2048x16_S16x1024_S2048x1024_1_0_0_1_n_n.lhsIdx i q 1).val = (q ⟨0, by decide⟩).val :=
  dot_S2048x16_S16x1024_S2048x1024_1_0_0_1_n_n.lhsIdx_val_of_single rfl i q

/-- The right operand's row coordinate is the contracted one. -/
private theorem rhs_up_0 (i : S2048x1024.Idx) (q : dot_S2048x16_S16x1024_S2048x1024_1_0_0_1_n_n.contr.Idx) :
    (dot_S2048x16_S16x1024_S2048x1024_1_0_0_1_n_n.rhsIdx i q 0).val = (q ⟨0, by decide⟩).val :=
  dot_S2048x16_S16x1024_S2048x1024_1_0_0_1_n_n.rhsIdx_val_of_single rfl i q

/-- The right operand's column coordinate is the output's column. -/
private theorem rhs_up_1 (i : S2048x1024.Idx) (q : dot_S2048x16_S16x1024_S2048x1024_1_0_0_1_n_n.contr.Idx) :
    (dot_S2048x16_S16x1024_S2048x1024_1_0_0_1_n_n.rhsIdx i q 1).val = (i 1).val := by
  unfold DotDims.rhsIdx
  rw [dif_neg (show ¬(1 : Fin S16x1024.rank) ∈ dot_S2048x16_S16x1024_S2048x1024_1_0_0_1_n_n.rhsBatch by decide),
    dif_pos (show (1 : Fin S16x1024.rank) ∈ dot_S2048x16_S16x1024_S2048x1024_1_0_0_1_n_n.rhsNonContracting by decide)]
  rfl

/-- The block product into a zero accumulator, at entry (r, n): the sum over the 16 contracted ranks. -/
private theorem matmul_up_apply (lhs : FVec Ideal S2048x16 .bf16) (rhs : FVec Ideal S16x1024 .bf16) (r : Fin 2048) (n : Fin 1024) :
    matmul (F := Ideal) dot_S2048x16_S16x1024_S2048x1024_1_0_0_1_n_n none lhs rhs (constant (F := Ideal) S2048x1024 .f32 0x00000000#32) (ix2 r n)
      = ∑ s : Fin 16, lhs (ix2 r s) * rhs (ix2 s n) := by
  simp only [matmul]
  rw [Ideal.matmul_constant_zero_apply,
    ← Equiv.sum_comp (contrEquiv1 dot_S2048x16_S16x1024_S2048x1024_1_0_0_1_n_n 16 rfl rfl).symm]
  refine Finset.sum_congr rfl fun k _ => ?_
  have hk := contrEquiv1_symm_val dot_S2048x16_S16x1024_S2048x1024_1_0_0_1_n_n 16 rfl rfl k
  have el : dot_S2048x16_S16x1024_S2048x1024_1_0_0_1_n_n.lhsIdx (ix2 r n)
      ((contrEquiv1 dot_S2048x16_S16x1024_S2048x1024_1_0_0_1_n_n 16 rfl rfl).symm k) = ix2 r k := funext fun a => Fin.ext (by
    match a with
    | ⟨0, _⟩ => exact lhs_up_0 _ _
    | ⟨1, _⟩ => exact (lhs_up_1 _ _).trans hk)
  have er : dot_S2048x16_S16x1024_S2048x1024_1_0_0_1_n_n.rhsIdx (ix2 r n)
      ((contrEquiv1 dot_S2048x16_S16x1024_S2048x1024_1_0_0_1_n_n 16 rfl rfl).symm k) = ix2 k n := funext fun a => Fin.ext (by
    match a with
    | ⟨0, _⟩ => exact (rhs_up_0 _ _).trans hk
    | ⟨1, _⟩ => exact rhs_up_1 _ _)
  rw [el, er]

/-! ### The payloads as terms: the same-shape casts dropped -/

/-- The x block's payload is the block itself. -/
private theorem pay6_eq (x0 : Vec Ideal S2048x128 .bf16) : k0_pay6 (F := Ideal) x0 = x0 :=
  shapeCast_self _ _

/-- The adapter accumulator's payload: what it held plus the product of the x block with the transposed down block. -/
private theorem pay2_eq (v4 : FVec Ideal S2048x128 .bf16) (v129 : Vec Ideal S16x128 .f32) (v131 : Vec Ideal S2048x16 .f32) :
    k0_pay2 (F := Ideal) v4 v129 v131
      = addf v131 (matmul (F := Ideal) dot_S2048x128_S128x16_S2048x16_1_0_0_1_n_n none v4
          (transpose S128x16 [1, 0] (truncf .bf16 v129 bitsLt_bf16_f32) transposes_S16x128_p1_0_S128x16)
          (constant (F := Ideal) S2048x16 .f32 0x00000000#32)) :=
  shapeCast_self _ _

/-- The output block's payload: base accumulator plus the bias row down the rows plus the product of the adapter
    accumulator with the transposed up block. -/
private theorem pay3_eq (v141 : Vec Ideal S1024x16 .f32) (v144 : Vec Ideal S2048x16 .f32) (v148 : Vec Ideal S2048x1024 .f32)
    (v149 : Vec Ideal S1x1024 .f32) :
    k0_pay3 (F := Ideal) v141 v144 v148 v149
      = addf (addf v148 (broadcastTo S2048x1024 v149 broadcasts_S1x1024_S2048x1024))
          (matmul (F := Ideal) dot_S2048x16_S16x1024_S2048x1024_1_0_0_1_n_n none (truncf .bf16 v144 bitsLt_bf16_f32)
            (transpose S16x1024 [1, 0] (truncf .bf16 v141 bitsLt_bf16_f32) transposes_S1024x16_p1_0_S16x1024)
            (constant (F := Ideal) S2048x1024 .f32 0x00000000#32)) := by
  unfold k0_pay3
  dsimp only
  rw [shapeCast_self, shapeCast_self]

/-- The base accumulator's reset is zero. -/
theorem pay4_apply (j : S2048x1024.Idx) : k0_pay4 (F := Ideal) j = 0 := by
  have e : k0_pay4 (F := Ideal) = broadcast S2048x1024 (Scalar.ofBits (F := Ideal) .f32 0x00000000#32) := shapeCast_self _ _
  rw [e, broadcast_apply]
  exact Ideal.ofBits_zero_f32

/-- The adapter accumulator's reset is zero. -/
theorem pay5_apply (j : S2048x16.Idx) : k0_pay5 (F := Ideal) j = 0 := by
  have e : k0_pay5 (F := Ideal) = broadcast S2048x16 (Scalar.ofBits (F := Ideal) .f32 0x00000000#32) := shapeCast_self _ _
  rw [e, broadcast_apply]
  exact Ideal.ofBits_zero_f32

/-- Entry (r, s) of the adapter accumulator after a point: what it held plus the sum over the block's 128 columns of the x
    entry times the down matrix's entry. -/
theorem laccStep_apply (x0 : Vec Ideal S2048x128 .bf16) (x3 : Vec Ideal S16x128 .f32) (lacc : Vec Ideal S2048x16 .f32)
    (r : Fin 2048) (s : Fin 16) :
    laccStep (F := Ideal) x0 x3 lacc (ix2 r s) = lacc (ix2 r s) + ∑ c : Fin 128, x0 (ix2 r c) * x3 (ix2 s c) := by
  unfold laccStep
  rw [pay2_eq, pay6_eq, addf_apply, matmul_down_apply]
  refine congrArg (lacc (ix2 r s) + ·) (Finset.sum_congr rfl fun c _ => ?_)
  rw [transpose_ix2_apply, truncf_apply]

/-- Entry (r, n) of the output block: base accumulator plus bias plus the sum over the 16 ranks of the adapter accumulator's
    entry times the (scaled) up matrix's entry. -/
theorem outStep_apply (x4 : Vec Ideal S1024x16 .f32) (lacc : Vec Ideal S2048x16 .f32) (acc : Vec Ideal S2048x1024 .f32)
    (x5 : Vec Ideal S1x1024 .f32) (r : Fin 2048) (n : Fin 1024) :
    outStep (F := Ideal) x4 lacc acc x5 (ix2 r n)
      = (acc (ix2 r n) + x5 (ix2 (0 : Fin 1) n)) + ∑ s : Fin 16, lacc (ix2 r s) * x4 (ix2 n s) := by
  unfold outStep
  rw [pay3_eq, addf_apply, addf_apply, matmul_up_apply, broadcastTo_1b_ab_apply]
  refine congrArg ((acc (ix2 r n) + x5 (ix2 (0 : Fin 1) n)) + ·) (Finset.sum_congr rfl fun s _ => ?_)
  rw [transpose_ix2_apply, truncf_apply, truncf_apply]

end Cert.KernelIdeal.Body

end
-- ==== Proof.KernelBlocks.lean ====
import proofs.«423903_j62594853372313_2_alg».proof.Proof.Gen.KernelIdeal.Frame
import Idealize.ShloMosaic.Lib.Pipeline.Value
import Idealize.ShloMosaic.Lib.ValueIdx
import Idealize.ShloMosaic.Lib.StableHlo.Run

/-!
The grid point `t = 128·i + 32·j + k` of the 4 × 4 × 32 grid, and what each input window's block
at `t` is of its whole array: rows `2048·i …` and columns `128·k …` of x, rows `1024·j …` and
columns `128·k …` of the codes, rows `1024·j …` of the scales and of the up matrix, columns
`128·k …` of the down matrix, columns `1024·j …` of the bias row. Three of the windows' arrays
are written by host operations before the call: x cast to bf16, the bias as a row, the up
matrix times alpha / 16.
-/

noncomputable section

namespace Cert.KernelIdeal.Blocks

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ)

/-- The windows' block indices at every grid point, decided once over the 512 points. -/
theorem idx_facts : ∀ t : Fin cfg0.N,
    (win0_0.index t 0 = t.val / 128 ∧ win0_0.index t 1 = t.val % 32)
    ∧ (win0_1.index t 0 = t.val / 32 % 4 ∧ win0_1.index t 1 = t.val % 32)
    ∧ (win0_2.index t 0 = t.val / 32 % 4 ∧ win0_2.index t 1 = 0)
    ∧ (win0_3.index t 0 = 0 ∧ win0_3.index t 1 = t.val % 32)
    ∧ (win0_4.index t 0 = t.val / 32 % 4 ∧ win0_4.index t 1 = 0)
    ∧ (win0_5.index t 0 = 0 ∧ win0_5.index t 1 = t.val / 32 % 4)
    ∧ (win0_6.index t 0 = t.val / 128 ∧ win0_6.index t 1 = t.val / 32 % 4) :=
  (by decide +kernel : ∀ t : Fin grid0.N, _)

/-- The third grid coordinate of point `t` is `t % 32`. -/
theorem coord2 : ∀ t : Fin cfg0.N, ((grid0.coords t) 2).val = t.val % 32 :=
  (by decide +kernel : ∀ t : Fin grid0.N, _)

theorem N512 : cfg0.N = 512 := N_0

/-- x's block at point `t`, entry (r, c). -/
theorem blk0_apply (c : Dev nD) (t : Fin cfg0.N) (y : S2048x128.Idx) (i : S8192x4096.Idx)
    (h0 : (i 0).val = 2048 * (t.val / 128) + (y 0).val) (h1 : (i 1).val = 128 * (t.val % 32) + (y 1).val) :
    (iblk m c 0 t : S2048x128.Idx → Elt F .bf16) y = V m c main_v0 i := by
  have hi := (idx_facts t).1
  unfold iblk
  rw [View.read_apply]
  show V m c main_v0 _ = V m c main_v0 i
  congr 1
  funext a
  apply Fin.ext
  match a with
  | ⟨0, _⟩ => show win0_0.index t 0 * 2048 + 1 * (y 0).val = (i 0).val; rw [hi.1, h0]; omega
  | ⟨1, _⟩ => show win0_0.index t 1 * 128 + 1 * (y 1).val = (i 1).val; rw [hi.2, h1]; omega

/-- The codes' block at point `t`, entry (n, c). -/
theorem blk1_apply (c : Dev nD) (t : Fin cfg0.N) (y : S1024x128.Idx) (i : S4096x4096.Idx)
    (h0 : (i 0).val = 1024 * (t.val / 32 % 4) + (y 0).val) (h1 : (i 1).val = 128 * (t.val % 32) + (y 1).val) :
    (iblk m c 1 t : S1024x128.Idx → Elt F .i32) y = V m c main_arg6 i := by
  have hi := (idx_facts t).2.1
  unfold iblk
  rw [View.read_apply]
  show V m c main_arg6 _ = V m c main_arg6 i
  congr 1
  funext a
  apply Fin.ext
  match a with
  | ⟨0, _⟩ => show win0_1.index t 0 * 1024 + 1 * (y 0).val = (i 0).val; rw [hi.1, h0]; omega
  | ⟨1, _⟩ => show win0_1.index t 1 * 128 + 1 * (y 1).val = (i 1).val; rw [hi.2, h1]; omega

/-- The scales' block at point `t`, entry (n, g). -/
theorem blk2_apply (c : Dev nD) (t : Fin cfg0.N) (y : S1024x64.Idx) (i : S4096x64.Idx)
    (h0 : (i 0).val = 1024 * (t.val / 32 % 4) + (y 0).val) (h1 : (i 1).val = (y 1).val) :
    (iblk m c 2 t : S1024x64.Idx → Elt F .f32) y = V m c main_arg1 i := by
  have hi := (idx_facts t).2.2.1
  unfold iblk
  rw [View.read_apply]
  show V m c main_arg1 _ = V m c main_arg1 i
  congr 1
  funext a
  apply Fin.ext
  match a with
  | ⟨0, _⟩ => show win0_2.index t 0 * 1024 + 1 * (y 0).val = (i 0).val; rw [hi.1, h0]; omega
  | ⟨1, _⟩ => show win0_2.index t 1 * 64 + 1 * (y 1).val = (i 1).val; rw [hi.2, h1]; omega

/-- The down matrix's block at point `t`, entry (s, c). -/
theorem blk3_apply (c : Dev nD) (t : Fin cfg0.N) (y : S16x128.Idx) (i : S16x4096.Idx)
    (h0 : (i 0).val = (y 0).val) (h1 : (i 1).val = 128 * (t.val % 32) + (y 1).val) :
    (iblk m c 3 t : S16x128.Idx → Elt F .f32) y = V m c main_arg3 i := by
  have hi := (idx_facts t).2.2.2.1
  unfold iblk
  rw [View.read_apply]
  show V m c main_arg3 _ = V m c main_arg3 i
  congr 1
  funext a
  apply Fin.ext
  match a with
  | ⟨0, _⟩ => show win0_3.index t 0 * 16 + 1 * (y 0).val = (i 0).val; rw [hi.1, h0]; omega
  | ⟨1, _⟩ => show win0_3.index t 1 * 128 + 1 * (y 1).val = (i 1).val; rw [hi.2, h1]; omega

/-- The scaled up matrix's block at point `t`, entry (n, s). -/
theorem blk4_apply (c : Dev nD) (t : Fin cfg0.N) (y : S1024x16.Idx) (i : S4096x16.Idx)
    (h0 : (i 0).val = 1024 * (t.val / 32 % 4) + (y 0).val) (h1 : (i 1).val = (y 1).val) :
    (iblk m c 4 t : S1024x16.Idx → Elt F .f32) y = V m c main_v4 i := by
  have hi := (idx_facts t).2.2.2.2.1
  unfold iblk
  rw [View.read_apply]
  show V m c main_v4 _ = V m c main_v4 i
  congr 1
  funext a
  apply Fin.ext
  match a with
  | ⟨0, _⟩ => show win0_4.index t 0 * 1024 + 1 * (y 0).val = (i 0).val; rw [hi.1, h0]; omega
  | ⟨1, _⟩ => show win0_4.index t 1 * 16 + 1 * (y 1).val = (i 1).val; rw [hi.2, h1]; omega

/-- The bias row's block at point `t`, entry (0, n). -/
theorem blk5_apply (c : Dev nD) (t : Fin cfg0.N) (y : S1x1024.Idx) (i : S1x4096.Idx)
    (h0 : (i 0).val = (y 0).val) (h1 : (i 1).val = 1024 * (t.val / 32 % 4) + (y 1).val) :
    (iblk m c 5 t : S1x1024.Idx → Elt F .f32) y = V m c main_v1 i := by
  have hi := (idx_facts t).2.2.2.2.2.1
  unfold iblk
  rw [View.read_apply]
  show V m c main_v1 _ = V m c main_v1 i
  congr 1
  funext a
  apply Fin.ext
  match a with
  | ⟨0, _⟩ => show win0_5.index t 0 * 1 + 1 * (y 0).val = (i 0).val; rw [hi.1, h0]; omega
  | ⟨1, _⟩ => show win0_5.index t 1 * 1024 + 1 * (y 1).val = (i 1).val; rw [hi.2, h1]; omega

/-! ## The arrays the host operations write before the call -/

/-- x as the call finds it: cast to bf16. -/
theorem V_v0 (c : Dev nD) :
    (V m c main_v0 : S8192x4096.Idx → Elt F .bf16) = truncf .bf16 (m ((c : Thread nD τ).loc main_arg0)) Facts₀.bitsLt_bf16_f32 := by
  dsimp only [V, hostOps0]; after_results

/-- The bias as the call finds it: the vector as a one-row matrix. -/
theorem V_v1 (c : Dev nD) :
    (V m c main_v1 : S1x4096.Idx → Elt F .f32) = shapeCast S1x4096 (m ((c : Thread nD τ).loc main_arg2)) Facts₀.shapeCasts_S4096_S1x4096 := by
  dsimp only [V, hostOps0]; after_results; rfl

/-- The up matrix as the call finds it: every entry times alpha / 16. -/
theorem V_v4 (c : Dev nD) :
    (V m c main_v4 : S4096x16.Idx → Elt F .f32) = mulf (m ((c : Thread nD τ).loc main_arg4))
      (broadcastInDim S4096x16 ![] Facts₀.bcast_S_S4096x16 (Host.divf (m ((c : Thread nD τ).loc main_arg5)) (constant (F := F) S_ .f32 0x41800000#32))) := by
  dsimp only [V, hostOps0]; after_results

end Cert.KernelIdeal.Blocks

end
-- ==== Proof.KernelValue.lean ====
import proofs.«423903_j62594853372313_2_alg».proof.Proof.Gen.KernelIdeal.Value
import proofs.«423903_j62594853372313_2_alg».proof.Proof.KernelBody
import proofs.«423903_j62594853372313_2_alg».proof.Proof.KernelPayA
import proofs.«423903_j62594853372313_2_alg».proof.Proof.KernelPayL
import proofs.«423903_j62594853372313_2_alg».proof.Proof.KernelBlocks
import proofs.«423903_j62594853372313_2_alg».proof.Proof.Spec
import Idealize.ShloMosaic.Lib.IdealHost

/-!
The kernel's result array. Along a run of 32 grid points (one output block, the column blocks
in order) the base accumulator holds the base product over the column blocks so far and the
adapter accumulator the hidden product over them; at the run's last point the block written
back is base + bias + hidden × scaled up matrix; the sixteen output blocks tile the array.
-/

noncomputable section

namespace Cert.KernelIdeal.KVal

open Cert.KernelIdeal Cert.KernelIdeal.Gen Cert.KernelIdeal.Body Cert.KernelIdeal.Blocks
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The argument arrays and the blocks, at their literal types -/

abbrev X (c : Dev nD) : Cert.QL.SX.Idx → EReal := m ((c : Thread nD τ).loc main_arg0)
abbrev AM (c : Dev nD) : Cert.QL.SA.Idx → EReal := m ((c : Thread nD τ).loc main_arg1)
abbrev BI (c : Dev nD) : Cert.QL.SB.Idx → EReal := m ((c : Thread nD τ).loc main_arg2)
abbrev LD (c : Dev nD) : Cert.QL.SD.Idx → EReal := m ((c : Thread nD τ).loc main_arg3)
abbrev LU (c : Dev nD) : Cert.QL.SU.Idx → EReal := m ((c : Thread nD τ).loc main_arg4)
abbrev AL (c : Dev nD) : Cert.QL.S0.Idx → EReal := m ((c : Thread nD τ).loc main_arg5)
abbrev Q (c : Dev nD) : Cert.QL.SQ.Idx → BitVec 32 := m ((c : Thread nD τ).loc main_arg6)

abbrev b0 (c : Dev nD) (t : Fin cfg0.N) : Vec Ideal S2048x128 .bf16 := iblk m c 0 t
abbrev b1 (c : Dev nD) (t : Fin cfg0.N) : Vec Ideal S1024x128 .i32 := iblk m c 1 t
abbrev b2 (c : Dev nD) (t : Fin cfg0.N) : Vec Ideal S1024x64 .f32 := iblk m c 2 t
abbrev b3 (c : Dev nD) (t : Fin cfg0.N) : Vec Ideal S16x128 .f32 := iblk m c 3 t
abbrev b4 (c : Dev nD) (t : Fin cfg0.N) : Vec Ideal S1024x16 .f32 := iblk m c 4 t
abbrev b5 (c : Dev nD) (t : Fin cfg0.N) : Vec Ideal S1x1024 .f32 := iblk m c 5 t

/-- The array row of row `r` of the output block of point `t`. -/
def rowOf (t : Fin cfg0.N) (r : Fin 2048) : Fin 8192 :=
  ⟨2048 * (t.val / 128) + r.val, by have h := lt_of_lt_of_eq t.isLt N512; have := r.isLt; omega⟩
/-- The array column of column `n` of the output block of point `t`. -/
def outOf (t : Fin cfg0.N) (n : Fin 1024) : Fin 4096 :=
  ⟨1024 * (t.val / 32 % 4) + n.val, by have := n.isLt; omega⟩

/-! ## What each control case leaves, as the step functions of the point's blocks -/

theorem outs_A (c : Dev nD) (t : Fin cfg0.N) (h0 : t.val % 32 = 0) (h1 : ¬t.val % 32 = 31) :
    (outsAt0 m c t.val t.isLt).2.1 = accStep (BitVec.ofNat 32 ((grid0.coords t) 2).val) (b0 m c t) (b1 m c t) (b2 m c t) (k0_pay4 (F := Ideal))
    ∧ (outsAt0 m c t.val t.isLt).2.2 = laccStep (b0 m c t) (b3 m c t) (k0_pay5 (F := Ideal)) := by
  rw [outsAt0_A m c t h0 h1]
  dsimp only
  exact ⟨soutA0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t),
    soutA1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)⟩

theorem outs_B (c : Dev nD) (t : Fin cfg0.N) (h0 : ¬t.val % 32 = 0) (h1 : ¬t.val % 32 = 31) :
    (outsAt0 m c t.val t.isLt).2.1 = accStep (BitVec.ofNat 32 ((grid0.coords t) 2).val) (b0 m c t) (b1 m c t) (b2 m c t) (outsAt0 m c (t.val - 1) (Nat.lt_of_le_of_lt (Nat.sub_le _ _) t.isLt)).2.1
    ∧ (outsAt0 m c t.val t.isLt).2.2 = laccStep (b0 m c t) (b3 m c t) (outsAt0 m c (t.val - 1) (Nat.lt_of_le_of_lt (Nat.sub_le _ _) t.isLt)).2.2 := by
  rw [outsAt0_B m c t h0 h1]
  dsimp only
  exact ⟨soutB0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2,
    soutB1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2⟩

theorem outs_C (c : Dev nD) (t : Fin cfg0.N) (h0 : ¬t.val % 32 = 0) (h1 : t.val % 32 = 31) :
    (outsAt0 m c t.val t.isLt).1 = outStep (b4 m c t) (laccStep (b0 m c t) (b3 m c t) (outsAt0 m c (t.val - 1) (Nat.lt_of_le_of_lt (Nat.sub_le _ _) t.isLt)).2.2)
        (accStep (BitVec.ofNat 32 ((grid0.coords t) 2).val) (b0 m c t) (b1 m c t) (b2 m c t) (outsAt0 m c (t.val - 1) (Nat.lt_of_le_of_lt (Nat.sub_le _ _) t.isLt)).2.1) (b5 m c t)
    ∧ (outsAt0 m c t.val t.isLt).2.1 = accStep (BitVec.ofNat 32 ((grid0.coords t) 2).val) (b0 m c t) (b1 m c t) (b2 m c t) (outsAt0 m c (t.val - 1) (Nat.lt_of_le_of_lt (Nat.sub_le _ _) t.isLt)).2.1
    ∧ (outsAt0 m c t.val t.isLt).2.2 = laccStep (b0 m c t) (b3 m c t) (outsAt0 m c (t.val - 1) (Nat.lt_of_le_of_lt (Nat.sub_le _ _) t.isLt)).2.2 := by
  rw [outsAt0_C m c t h0 h1]
  dsimp only
  exact ⟨outC6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2,
    soutC0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2,
    soutC1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2⟩

/-! ## The blocks' entries, of the argument arrays -/

theorem tlt (t : Fin cfg0.N) : t.val < 512 := lt_of_lt_of_eq t.isLt N512

theorem b0_apply (c : Dev nD) (t : Fin cfg0.N) (r : Fin 2048) (cc : Fin 128) :
    b0 m c t (ix2 r cc) = X m c (ix2 (rowOf t r) (Cert.QL.colOf (t.val % 32) cc)) := by
  have ht := tlt t
  refine (blk0_apply m c t (ix2 r cc) (ix2 (rowOf t r) (Cert.QL.colOf (t.val % 32) cc)) rfl ?_).trans ?_
  · show (128 * (t.val % 32) + cc.val) % 4096 = 128 * (t.val % 32) + cc.val
    have := cc.isLt; omega
  · rw [V_v0]; rfl

theorem b1_apply (c : Dev nD) (t : Fin cfg0.N) (n : Fin 1024) (cc : Fin 128) :
    b1 m c t (ix2 n cc) = Q m c (ix2 (outOf t n) (Cert.QL.colOf (t.val % 32) cc)) := by
  have ht := tlt t
  refine (blk1_apply m c t (ix2 n cc) (ix2 (outOf t n) (Cert.QL.colOf (t.val % 32) cc)) rfl ?_).trans ?_
  · show (128 * (t.val % 32) + cc.val) % 4096 = 128 * (t.val % 32) + cc.val
    have := cc.isLt; omega
  · exact congrFun (V_main_arg6 m c) _

theorem b2_apply (c : Dev nD) (t : Fin cfg0.N) (n : Fin 1024) (g : Fin 64) :
    b2 m c t (ix2 n g) = AM m c (ix2 (outOf t n) g) := by
  refine (blk2_apply m c t (ix2 n g) (ix2 (outOf t n) g) rfl rfl).trans ?_
  exact congrFun (V_main_arg1 m c) _

theorem b3_apply (c : Dev nD) (t : Fin cfg0.N) (s : Fin 16) (cc : Fin 128) :
    b3 m c t (ix2 s cc) = LD m c (ix2 s (Cert.QL.colOf (t.val % 32) cc)) := by
  have ht := tlt t
  refine (blk3_apply m c t (ix2 s cc) (ix2 s (Cert.QL.colOf (t.val % 32) cc)) rfl ?_).trans ?_
  · show (128 * (t.val % 32) + cc.val) % 4096 = 128 * (t.val % 32) + cc.val
    have := cc.isLt; omega
  · exact congrFun (V_main_arg3 m c) _

theorem b4_apply (c : Dev nD) (t : Fin cfg0.N) (n : Fin 1024) (s : Fin 16) :
    b4 m c t (ix2 n s) = LU m c (ix2 (outOf t n) s) * Cert.QL.scOf (AL m c) := by
  refine (blk4_apply m c t (ix2 n s) (ix2 (outOf t n) s) rfl rfl).trans ?_
  rw [V_v4]
  show LU m c (ix2 (outOf t n) s) * broadcastInDim S4096x16 ![] _ (Host.divf (AL m c) (constant (F := Ideal) S_ .f32 0x41800000#32)) (ix2 (outOf t n) s) = _
  rw [broadcastInDim_scalar_apply]
  rfl

theorem b5_apply (c : Dev nD) (t : Fin cfg0.N) (n : Fin 1024) :
    b5 m c t (ix2 (0 : Fin 1) n) = BI m c (ix1 (outOf t n)) := by
  refine (blk5_apply m c t (ix2 (0 : Fin 1) n) (ix2 (0 : Fin 1) (outOf t n)) rfl rfl).trans ?_
  rw [V_v1]
  refine shapeCast_apply _ _ _ (ix1 (outOf t n)) ?_
  rw [Shape.rowMajor_val_two, Shape.rowMajor_val_one]
  show (outOf t n).val = 0 * 4096 + (outOf t n).val
  omega

/-! ## One point's steps, of the argument arrays -/

theorem acc_step (c : Dev nD) (t : Fin cfg0.N) (acc : Vec Ideal S2048x1024 .f32) (r : Fin 2048) (n : Fin 1024) :
    accStep (F := Ideal) (BitVec.ofNat 32 ((grid0.coords t) 2).val) (b0 m c t) (b1 m c t) (b2 m c t) acc (ix2 r n)
      = acc (ix2 r n) + ∑ cc : Fin 128, X m c (ix2 (rowOf t r) (Cert.QL.colOf (t.val % 32) cc))
          * Cert.QL.wt (AM m c) (Q m c) (outOf t n) (Cert.QL.colOf (t.val % 32) cc) := by
  have ht := tlt t
  rw [coord2 t, accStep_apply (t.val % 32) (by omega)]
  refine congrArg (acc (ix2 r n) + ·) (Finset.sum_congr rfl fun cc _ => ?_)
  rw [b0_apply m c t r cc, b1_apply m c t n cc, b2_apply m c t n]
  unfold Cert.QL.wt
  have hg : (⟨2 * (t.val % 32) + cc.val / 64, by have := cc.isLt; omega⟩ : Fin 64) = Cert.QL.grpOf (Cert.QL.colOf (t.val % 32) cc) :=
    Fin.ext (by show 2 * (t.val % 32) + cc.val / 64 = (128 * (t.val % 32) + cc.val) % 4096 / 64; have := cc.isLt; omega)
  rw [hg]

theorem lacc_step (c : Dev nD) (t : Fin cfg0.N) (lacc : Vec Ideal S2048x16 .f32) (r : Fin 2048) (s : Fin 16) :
    laccStep (F := Ideal) (b0 m c t) (b3 m c t) lacc (ix2 r s)
      = lacc (ix2 r s) + ∑ cc : Fin 128, X m c (ix2 (rowOf t r) (Cert.QL.colOf (t.val % 32) cc))
          * LD m c (ix2 s (Cert.QL.colOf (t.val % 32) cc)) := by
  rw [laccStep_apply]
  refine congrArg (lacc (ix2 r s) + ·) (Finset.sum_congr rfl fun cc _ => ?_)
  rw [b0_apply m c t r cc, b3_apply m c t s cc]

/-- Past a run's first point both accumulators step from what the point before left. -/
theorem outs_step (c : Dev nD) (t : Fin cfg0.N) (h0 : ¬t.val % 32 = 0) :
    (outsAt0 m c t.val t.isLt).2.1 = accStep (BitVec.ofNat 32 ((grid0.coords t) 2).val) (b0 m c t) (b1 m c t) (b2 m c t) (outsAt0 m c (t.val - 1) (Nat.lt_of_le_of_lt (Nat.sub_le _ _) t.isLt)).2.1
    ∧ (outsAt0 m c t.val t.isLt).2.2 = laccStep (b0 m c t) (b3 m c t) (outsAt0 m c (t.val - 1) (Nat.lt_of_le_of_lt (Nat.sub_le _ _) t.isLt)).2.2 := by
  by_cases h1 : t.val % 32 = 31
  · exact (outs_C m c t h0 h1).2
  · exact outs_B m c t h0 h1

/-! ## The accumulators along a run -/

/-- After point `n` (column block `n % 32` of its run) the base accumulator holds the base product over the column blocks
    `0 … n % 32` and the adapter accumulator the hidden product over them, at the rows and columns of the run's output block. -/
theorem inv (c : Dev nD) : ∀ (n : ℕ) (hn : n < cfg0.N),
    (∀ (r : Fin 2048) (k : Fin 1024), (outsAt0 m c n hn).2.1 (ix2 r k)
        = Cert.QL.baseUpTo (X m c) (AM m c) (Q m c) (n % 32 + 1) (rowOf ⟨n, hn⟩ r) (outOf ⟨n, hn⟩ k))
    ∧ (∀ (r : Fin 2048) (s : Fin 16), (outsAt0 m c n hn).2.2 (ix2 r s)
        = Cert.QL.hidUpTo (X m c) (LD m c) (n % 32 + 1) (rowOf ⟨n, hn⟩ r) s) := by
  intro n
  induction n with
  | zero =>
    intro hn
    obtain ⟨ha, hl⟩ := outs_A m c ⟨0, hn⟩ rfl (by show ¬(0 % 32 = 31); omega)
    constructor
    · intro r k
      rw [show (outsAt0 m c 0 hn).2.1 = _ from ha, acc_step, pay4_apply]
      show 0 + _ = Cert.QL.baseUpTo _ _ _ 1 _ _
      unfold Cert.QL.baseUpTo
      rw [Finset.sum_range_one, zero_add]
      rfl
    · intro r s
      rw [show (outsAt0 m c 0 hn).2.2 = _ from hl, lacc_step, pay5_apply]
      show 0 + _ = Cert.QL.hidUpTo _ _ 1 _ _
      unfold Cert.QL.hidUpTo
      rw [Finset.sum_range_one, zero_add]
      rfl
  | succ n ih =>
    intro hn
    have hn' : n < cfg0.N := Nat.lt_of_succ_lt hn
    have hN : n + 1 < 512 := lt_of_lt_of_eq hn N512
    obtain ⟨iha, ihl⟩ := ih hn'
    by_cases h0 : (n + 1) % 32 = 0
    · obtain ⟨ha, hl⟩ := outs_A m c ⟨n + 1, hn⟩ h0 (by show ¬(n + 1) % 32 = 31; omega)
      constructor
      · intro r k
        rw [show (outsAt0 m c (n + 1) hn).2.1 = _ from ha, acc_step, pay4_apply]
        show 0 + _ = Cert.QL.baseUpTo _ _ _ ((n + 1) % 32 + 1) _ _
        rw [h0]
        unfold Cert.QL.baseUpTo
        rw [Finset.sum_range_one, zero_add]
      · intro r s
        rw [show (outsAt0 m c (n + 1) hn).2.2 = _ from hl, lacc_step, pay5_apply]
        show 0 + _ = Cert.QL.hidUpTo _ _ ((n + 1) % 32 + 1) _ _
        rw [h0]
        unfold Cert.QL.hidUpTo
        rw [Finset.sum_range_one, zero_add]
    · have hk : (n + 1) % 32 = n % 32 + 1 := by omega
      have hrow : ∀ r, rowOf ⟨n + 1, hn⟩ r = rowOf ⟨n, hn'⟩ r := fun r =>
        Fin.ext (by show 2048 * ((n + 1) / 128) + r.val = 2048 * (n / 128) + r.val; omega)
      have hout : ∀ k, outOf ⟨n + 1, hn⟩ k = outOf ⟨n, hn'⟩ k := fun k =>
        Fin.ext (by show 1024 * ((n + 1) / 32 % 4) + k.val = 1024 * (n / 32 % 4) + k.val; omega)
      obtain ⟨ha, hl⟩ := outs_step m c ⟨n + 1, hn⟩ h0
      constructor
      · intro r k
        have e : (outsAt0 m c ((⟨n + 1, hn⟩ : Fin cfg0.N).val - 1) (Nat.lt_of_le_of_lt (Nat.sub_le _ _) (⟨n + 1, hn⟩ : Fin cfg0.N).isLt)).2.1 (ix2 r k)
            = Cert.QL.baseUpTo (X m c) (AM m c) (Q m c) (n % 32 + 1) (rowOf ⟨n, hn'⟩ r) (outOf ⟨n, hn'⟩ k) := iha r k
        rw [show (outsAt0 m c (n + 1) hn).2.1 = _ from ha, acc_step, e, hrow, hout]
        show _ + ∑ cc : Fin 128, X m c (ix2 _ (Cert.QL.colOf ((n + 1) % 32) cc)) * Cert.QL.wt _ _ _ (Cert.QL.colOf ((n + 1) % 32) cc) = Cert.QL.baseUpTo _ _ _ ((n + 1) % 32 + 1) _ _
        rw [hk]
        unfold Cert.QL.baseUpTo
        rw [Finset.sum_range_succ _ (n % 32 + 1)]
      · intro r s
        have e : (outsAt0 m c ((⟨n + 1, hn⟩ : Fin cfg0.N).val - 1) (Nat.lt_of_le_of_lt (Nat.sub_le _ _) (⟨n + 1, hn⟩ : Fin cfg0.N).isLt)).2.2 (ix2 r s)
            = Cert.QL.hidUpTo (X m c) (LD m c) (n % 32 + 1) (rowOf ⟨n, hn'⟩ r) s := ihl r s
        rw [show (outsAt0 m c (n + 1) hn).2.2 = _ from hl, lacc_step, e, hrow]
        show _ + ∑ cc : Fin 128, X m c (ix2 _ (Cert.QL.colOf ((n + 1) % 32) cc)) * LD m c (ix2 s (Cert.QL.colOf ((n + 1) % 32) cc)) = Cert.QL.hidUpTo _ _ ((n + 1) % 32 + 1) _ _
        rw [hk]
        unfold Cert.QL.hidUpTo
        rw [Finset.sum_range_succ _ (n % 32 + 1)]

/-! ## The block written back, the cover, the array -/

/-- The kernel's result array as one function of the argument arrays. -/
abbrev result (c : Dev nD) : Cert.QL.SX.Idx → EReal :=
  Cert.QL.GK (X m c) (AM m c) (BI m c) (LD m c) (LU m c) (Cert.QL.scOf (AL m c)) (Q m c)

/-- What a run's last point writes back is its block of `result`. -/
theorem flushed_eq (c : Dev nD) (t : Fin cfg0.N) (hf : (cfg0.win 6).flush t = true) :
    (dats m 0 c).flushed 6 t = ((cfg0.win 6).blk t).view.read (Elt Ideal) (result m c) := by
  have h31 : t.val % 32 = 31 := (flush0_6 t).mp hf
  have h0 : ¬t.val % 32 = 0 := by omega
  have ht := tlt t
  rw [Value.flushed6]
  funext j
  obtain ⟨r, n, rfl⟩ : ∃ (r : Fin 2048) (n : Fin 1024), j = ix2 r n := ⟨j 0, j 1, eq_ix2 j⟩
  show (outsAt0 m c t.val t.isLt).1 (ix2 r n) = result m c (((cfg0.win 6).blk t).view.emb (ix2 r n))
  obtain ⟨ho, ha, hl⟩ := outs_C m c t h0 h31
  rw [ho, ← ha, ← hl, outStep_apply]
  obtain ⟨ia, il⟩ := inv m c t.val t.isLt
  have hi := (idx_facts t).2.2.2.2.2.2
  have e0 : ((cfg0.win 6).blk t).view.emb (ix2 r n) = ix2 (rowOf t r) (outOf t n) := by
    funext a
    apply Fin.ext
    match a with
    | ⟨0, _⟩ => show win0_6.index t 0 * 2048 + 1 * r.val = 2048 * (t.val / 128) + r.val; rw [hi.1]; omega
    | ⟨1, _⟩ => show win0_6.index t 1 * 1024 + 1 * n.val = 1024 * (t.val / 32 % 4) + n.val; rw [hi.2]; omega
  rw [e0, ia r n, b5_apply m c t n]
  show _ = (Cert.QL.baseUpTo (X m c) (AM m c) (Q m c) 32 (rowOf t r) (outOf t n) + BI m c (ix1 (outOf t n)))
      + ∑ s : Fin 16, Cert.QL.hidUpTo (X m c) (LD m c) 32 (rowOf t r) s * (LU m c (ix2 (outOf t n) s) * Cert.QL.scOf (AL m c))
  rw [h31]
  refine congrArg (_ + ·) (Finset.sum_congr rfl fun s _ => ?_)
  rw [il r s, b4_apply m c t n s, h31]

/-- An index of the output array is in point `t`'s block iff each coordinate is in the block's range. -/
theorem mem_blk (t : Fin cfg0.N) (i : S8192x4096.Idx) :
    i ∈ ((cfg0.win 6).blk t).view.set ↔ ∀ a : Fin 2, win0_6.index t a * S2048x1024.size a ≤ (i a).val ∧ (i a).val < win0_6.index t a * S2048x1024.size a + S2048x1024.size a := by
  show i ∈ ((View.whole main_v5).slice (win0_6.rect t)).set ↔ _
  rw [View.set_slice_whole, Rect.mem_set_unit]
  exact Iff.rfl

/-- Every index of the output array lies in the block some run's last point writes back. -/
theorem cover (i : S8192x4096.Idx) : ∃ t : Fin cfg0.N, (cfg0.win 6).flush t = true ∧ i ∈ ((cfg0.win 6).blk t).view.set := by
  have h0 : (i 0).val < 8192 := (i 0).isLt
  have h1 : (i 1).val < 4096 := (i 1).isLt
  obtain ⟨tv, htv⟩ : ∃ tv : ℕ, tv = 128 * ((i 0).val / 2048) + 32 * ((i 1).val / 1024) + 31 := ⟨_, rfl⟩
  have hlt : tv < cfg0.N := lt_of_lt_of_eq (by omega : tv < 512) N512.symm
  have hi := (idx_facts ⟨tv, hlt⟩).2.2.2.2.2.2
  refine ⟨⟨tv, hlt⟩, (flush0_6 _).mpr (by show tv % 32 = 31; omega), ?_⟩
  rw [mem_blk]
  intro a
  match a with
  | ⟨0, _⟩ =>
    show win0_6.index ⟨tv, hlt⟩ 0 * 2048 ≤ (i 0).val ∧ (i 0).val < win0_6.index ⟨tv, hlt⟩ 0 * 2048 + 2048
    rw [hi.1]; show tv / 128 * 2048 ≤ _ ∧ _ < tv / 128 * 2048 + 2048; omega
  | ⟨1, _⟩ =>
    show win0_6.index ⟨tv, hlt⟩ 1 * 1024 ≤ (i 1).val ∧ (i 1).val < win0_6.index ⟨tv, hlt⟩ 1 * 1024 + 1024
    rw [hi.2]; show tv / 32 % 4 * 1024 ≤ _ ∧ _ < tv / 32 % 4 * 1024 + 1024; omega

/-- The output array after the run. -/
theorem final (c : Dev nD) : (dats m 0 c).arrAt 6 cfg0.N = result m c :=
  (dats m 0 c).arrAt_eq_of_cover 6 (result m c) (flushed_eq m c) cover

/-- Every weakly fair execution of the kernel program terminates with the result array at `result` of the arguments and
    the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.KVal

end
-- ==== Proof.RefTerm.lean ====
import proofs.«423903_j62594853372313_2_alg».proof.ReferenceIdeal

/-!
The reference's result as one term of its argument arrays: the code table gathered at the
codes (a negative code wrapped by 16 first), times the group scales repeated 64 times along
the columns; the base product plus the bias row; the two adapter products scaled by alpha/16.
-/

noncomputable section

namespace Cert.ReferenceIdeal.RefTerm

open Cert.ReferenceIdeal Idealize.ShloMosaic

variable {F : FTy → Type} [FloatOps F] [Facts]
open Facts₀ Facts

/-- The sixteen-entry code table. -/
def table : FVec F S16 .f32 := fun i => FloatOps.ofBits .f32 (lit0 (S16.rowMajor i))

/-- The start index of each code's gather: the code, a negative one first raised by 16. -/
def codeIdx (q : IVec S4096x4096 32) : IVec S4096x4096x1 32 :=
  broadcastInDim S4096x4096x1 ![0, 1] bcast_S4096x4096_S4096x4096x1_0_1
    (select (cmpi .slt q (broadcastInDim S4096x4096 ![] bcast_S_S4096x4096 (constantI S_ 32 0#32)))
      (addi q (broadcastInDim S4096x4096 ![] bcast_S_S4096x4096 (constantI S_ 32 16#32))) q)

/-- The dequantized weight matrix [out, in]. -/
def weight (am : FVec F S4096x64 .f32) (q : IVec S4096x4096 32) : FVec F S4096x4096 .f32 :=
  mulf (Host.gather gather_S16_S4096x4096x1_S4096x4096_n_0_n_n_0_2_1 (table (F := F)) (codeIdx q))
    (shapeCast S4096x4096 (broadcastInDim S4096x64x64 ![0, 1] bcast_S4096x64_S4096x64x64_0_1 am) shapeCasts_S4096x64x64_S4096x4096)

/-- The reference's result. -/
def refOut (x : FVec F S8192x4096 .f32) (am : FVec F S4096x64 .f32) (b : FVec F S4096 .f32) (ld : FVec F S16x4096 .f32)
    (lu : FVec F S4096x16 .f32) (al : FVec F S_ .f32) (q : IVec S4096x4096 32) : FVec F S8192x4096 .f32 :=
  addf
    (addf
      (Host.dotGeneral dot_S8192x4096_S4096x4096_S8192x4096_1_0_0_1_n_n none x
        (transpose S4096x4096 [1, 0] (weight am q) transposes_S4096x4096_S4096x4096_1_0))
      (broadcastInDim S8192x4096 ![0, 1] bcast_S1x4096_S8192x4096_0_1 (broadcastInDim S1x4096 ![1] bcast_S4096_S1x4096_1 b)))
    (mulf
      (Host.dotGeneral dot_S8192x16_S16x4096_S8192x4096_1_0_0_1_n_n none
        (Host.dotGeneral dot_S8192x4096_S4096x16_S8192x16_1_0_0_1_n_n none x (transpose S4096x16 [1, 0] ld transposes_S16x4096_S4096x16_1_0))
        (transpose S16x4096 [1, 0] lu transposes_S4096x16_S16x4096_1_0))
      (broadcastInDim S8192x4096 ![] bcast_S_S8192x4096 (Host.divf al (constant S_ .f32 0x41800000#32))))

end Cert.ReferenceIdeal.RefTerm

end
-- ==== Proof.RefRun.lean ====
import proofs.«423903_j62594853372313_2_alg».proof.Proof.Gen.ReferenceIdeal
import proofs.«423903_j62594853372313_2_alg».proof.Proof.RefTerm
import Idealize.ShloMosaic.Lib.StableHlo.Run

/-!
The reference program's run: its 27 host operations in order, and what every weakly fair
execution leaves — the result array at the operations' composed term of the arguments
(`RefTerm.refOut`), the arguments unchanged.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 27 operations, in order: the code table and the two integer constants, the codes
    wrapped and gathered, the scales repeated and multiplied in, the base product plus the bias
    row, the two adapter products, the scale alpha/16, and the final sum. -/
abbrev ops : List (HloOp τ sig (Elt F)) :=
  [ nullary main_cst (fun i => FloatOps.ofBits .f32 (lit0 (S16.rowMajor i))),
    nullary main_c (constantI S_ 32 0#32),
    unary main_c main_v0 (broadcastInDim S4096x4096 ![] bcast_S_S4096x4096 : (⟨S_, .i32⟩ : BufTy).Contents (Elt F) → (⟨S4096x4096, .i32⟩ : BufTy).Contents (Elt F)),
    binary main_arg6 main_v0 main_v1 (cmpi .slt : (⟨S4096x4096, .i32⟩ : BufTy).Contents (Elt F) → (⟨S4096x4096, .i32⟩ : BufTy).Contents (Elt F) → (⟨S4096x4096, .i1⟩ : BufTy).Contents (Elt F)),
    nullary main_c_0 (constantI S_ 32 16#32),
    unary main_c_0 main_v2 (broadcastInDim S4096x4096 ![] bcast_S_S4096x4096 : (⟨S_, .i32⟩ : BufTy).Contents (Elt F) → (⟨S4096x4096, .i32⟩ : BufTy).Contents (Elt F)),
    binary main_arg6 main_v2 main_v3 (addi : (⟨S4096x4096, .i32⟩ : BufTy).Contents (Elt F) → (⟨S4096x4096, .i32⟩ : BufTy).Contents (Elt F) → (⟨S4096x4096, .i32⟩ : BufTy).Contents (Elt F)),
    ternary main_v1 main_v3 main_arg6 main_v4 (select : (⟨S4096x4096, .i1⟩ : BufTy).Contents (Elt F) → (⟨S4096x4096, .i32⟩ : BufTy).Contents (Elt F) → (⟨S4096x4096, .i32⟩ : BufTy).Contents (Elt F) → (⟨S4096x4096, .i32⟩ : BufTy).Contents (Elt F)),
    unary main_v4 main_v5 (broadcastInDim S4096x4096x1 ![0, 1] bcast_S4096x4096_S4096x4096x1_0_1 : (⟨S4096x4096, .i32⟩ : BufTy).Contents (Elt F) → (⟨S4096x4096x1, .i32⟩ : BufTy).Contents (Elt F)),
    binary main_cst main_v5 main_v6 ((fun x i => Host.gather gather_S16_S4096x4096x1_S4096x4096_n_0_n_n_0_2_1 x i) : (⟨S16, .f32⟩ : BufTy).Contents (Elt F) → (⟨S4096x4096x1, .i32⟩ : BufTy).Contents (Elt F) → (⟨S4096x4096, .f32⟩ : BufTy).Contents (Elt F)),
    unary main_arg1 main_v7 (broadcastInDim S4096x64x64 ![0, 1] bcast_S4096x64_S4096x64x64_0_1 : (⟨S4096x64, .f32⟩ : BufTy).Contents (Elt F) → (⟨S4096x64x64, .f32⟩ : BufTy).Contents (Elt F)),
    reshape main_v7 main_v8 rfl shapeCasts_S4096x64x64_S4096x4096,
    binary main_v6 main_v8 main_v9 (mulf : (⟨S4096x4096, .f32⟩ : BufTy).Contents (Elt F) → (⟨S4096x4096, .f32⟩ : BufTy).Contents (Elt F) → (⟨S4096x4096, .f32⟩ : BufTy).Contents (Elt F)),
    unary main_v9 main_v10 ((transpose S4096x4096 [1, 0] · transposes_S4096x4096_S4096x4096_1_0) : (⟨S4096x4096, .f32⟩ : BufTy).Contents (Elt F) → (⟨S4096x4096, .f32⟩ : BufTy).Contents (Elt F)),
    binary main_arg0 main_v10 main_v11 ((fun l r => Host.dotGeneral dot_S8192x4096_S4096x4096_S8192x4096_1_0_0_1_n_n none l r) : (⟨S8192x4096, .f32⟩ : BufTy).Contents (Elt F) → (⟨S4096x4096, .f32⟩ : BufTy).Contents (Elt F) → (⟨S8192x4096, .f32⟩ : BufTy).Contents (Elt F)),
    unary main_arg2 main_v12 (broadcastInDim S1x4096 ![1] bcast_S4096_S1x4096_1 : (⟨S4096, .f32⟩ : BufTy).Contents (Elt F) → (⟨S1x4096, .f32⟩ : BufTy).Contents (Elt F)),
    unary main_v12 main_v13 (broadcastInDim S8192x4096 ![0, 1] bcast_S1x4096_S8192x4096_0_1 : (⟨S1x4096, .f32⟩ : BufTy).Contents (Elt F) → (⟨S8192x4096, .f32⟩ : BufTy).Contents (Elt F)),
    binary main_v11 main_v13 main_v14 (addf : (⟨S8192x4096, .f32⟩ : BufTy).Contents (Elt F) → (⟨S8192x4096, .f32⟩ : BufTy).Contents (Elt F) → (⟨S8192x4096, .f32⟩ : BufTy).Contents (Elt F)),
    unary main_arg3 main_v15 ((transpose S4096x16 [1, 0] · transposes_S16x4096_S4096x16_1_0) : (⟨S16x4096, .f32⟩ : BufTy).Contents (Elt F) → (⟨S4096x16, .f32⟩ : BufTy).Contents (Elt F)),
    binary main_arg0 main_v15 main_v16 ((fun l r => Host.dotGeneral dot_S8192x4096_S4096x16_S8192x16_1_0_0_1_n_n none l r) : (⟨S8192x4096, .f32⟩ : BufTy).Contents (Elt F) → (⟨S4096x16, .f32⟩ : BufTy).Contents (Elt F) → (⟨S8192x16, .f32⟩ : BufTy).Contents (Elt F)),
    unary main_arg4 main_v17 ((transpose S16x4096 [1, 0] · transposes_S4096x16_S16x4096_1_0) : (⟨S4096x16, .f32⟩ : BufTy).Contents (Elt F) → (⟨S16x4096, .f32⟩ : BufTy).Contents (Elt F)),
    binary main_v16 main_v17 main_v18 ((fun l r => Host.dotGeneral dot_S8192x16_S16x4096_S8192x4096_1_0_0_1_n_n none l r) : (⟨S8192x16, .f32⟩ : BufTy).Contents (Elt F) → (⟨S16x4096, .f32⟩ : BufTy).Contents (Elt F) → (⟨S8192x4096, .f32⟩ : BufTy).Contents (Elt F)),
    nullary main_cst_1 (constant S_ .f32 0x41800000#32),
    binary main_arg5 main_cst_1 main_v19 (Host.divf : (⟨S_, .f32⟩ : BufTy).Contents (Elt F) → (⟨S_, .f32⟩ : BufTy).Contents (Elt F) → (⟨S_, .f32⟩ : BufTy).Contents (Elt F)),
    unary main_v19 main_v20 (broadcastInDim S8192x4096 ![] bcast_S_S8192x4096 : (⟨S_, .f32⟩ : BufTy).Contents (Elt F) → (⟨S8192x4096, .f32⟩ : BufTy).Contents (Elt F)),
    binary main_v18 main_v20 main_v21 (mulf : (⟨S8192x4096, .f32⟩ : BufTy).Contents (Elt F) → (⟨S8192x4096, .f32⟩ : BufTy).Contents (Elt F) → (⟨S8192x4096, .f32⟩ : BufTy).Contents (Elt F)),
    binary main_v14 main_v21 main_v22 (addf : (⟨S8192x4096, .f32⟩ : BufTy).Contents (Elt F) → (⟨S8192x4096, .f32⟩ : BufTy).Contents (Elt F) → (⟨S8192x4096, .f32⟩ : BufTy).Contents (Elt F)) ]

/-- @main is the sequence of its operations. -/
theorem main_eq (c : Dev nD) : main (F := F) c = seq ops := rfl
/-- The signature scopes no buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide
/-- Every operation touches TensorCore buffers only. -/
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., binary_bufs_sub .., unary_bufs_sub .., unary_bufs_sub .., binary_bufs_sub .., unary_bufs_sub .., binary_bufs_sub .., unary_bufs_sub .., binary_bufs_sub .., nullary_bufs_sub .., binary_bufs_sub .., unary_bufs_sub .., binary_bufs_sub .., binary_bufs_sub ..⟩

/-! No operation writes an argument buffer, so the fold of the operations' results leaves each
argument's contents as they were. -/

private theorem after_arg0 (V : Valuation τ sig (Elt F)) :
    after (ops (F := F)) V (Proc.devRef .tc main_arg0) = V (Proc.devRef .tc main_arg0) := by after_results
private theorem after_arg1 (V : Valuation τ sig (Elt F)) :
    after (ops (F := F)) V (Proc.devRef .tc main_arg1) = V (Proc.devRef .tc main_arg1) := by after_results
private theorem after_arg2 (V : Valuation τ sig (Elt F)) :
    after (ops (F := F)) V (Proc.devRef .tc main_arg2) = V (Proc.devRef .tc main_arg2) := by after_results
private theorem after_arg3 (V : Valuation τ sig (Elt F)) :
    after (ops (F := F)) V (Proc.devRef .tc main_arg3) = V (Proc.devRef .tc main_arg3) := by after_results
private theorem after_arg4 (V : Valuation τ sig (Elt F)) :
    after (ops (F := F)) V (Proc.devRef .tc main_arg4) = V (Proc.devRef .tc main_arg4) := by after_results
private theorem after_arg5 (V : Valuation τ sig (Elt F)) :
    after (ops (F := F)) V (Proc.devRef .tc main_arg5) = V (Proc.devRef .tc main_arg5) := by after_results
private theorem after_arg6 (V : Valuation τ sig (Elt F)) :
    after (ops (F := F)) V (Proc.devRef .tc main_arg6) = V (Proc.devRef .tc main_arg6) := by after_results

/-- The result buffer after the 27 operations, from any contents `V`: reading each operation's
    result at its operands, innermost last, composes to `RefTerm.refOut` of the seven argument
    buffers; the reshape's result is the shape cast of its operand, read index by index. -/
private theorem after_v22 (V : Valuation τ sig (Elt F)) :
    after (ops (F := F)) V (Proc.devRef .tc main_v22) = RefTerm.refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  after_results_simp
  rfl

/-- Every weakly fair execution of @main terminates with the result at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22) = RefTerm.refOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v22).trans (after_v22 _),
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _),
      (h c main_arg6).trans (after_arg6 _)⟩)
    (run_seq scopedRefs_eq scopedSems_eq defs main (fun _ => ops) main_eq (fun _ => ops_sub) m ρ)

end Cert.ReferenceIdeal.RefRun

end
-- ==== Proof.RefValue.lean ====
import proofs.«423903_j62594853372313_2_alg».proof.Proof.Gen.ReferenceIdeal
import proofs.«423903_j62594853372313_2_alg».proof.Proof.RefTerm
import proofs.«423903_j62594853372313_2_alg».proof.Proof.Spec
import Idealize.ShloMosaic.PureOps.Ideal.Laws
import Idealize.ShloMosaic.Lib.ValueIdx
import Idealize.ShloMosaic.Lib.Pipeline.Value
import Idealize.ShloMosaic.Lib.StackMember

/-!
The reference's term read index by index at the extended reals: with every code in [0, 16)
the gather reads the table at the code itself, the repeated scales read the group of the
column, the three products are plain sums, and the result is `QL.G`.
-/

noncomputable section

namespace Cert.ReferenceIdeal.RefValue

open Cert.ReferenceIdeal Cert.ReferenceIdeal.Gen Idealize.ShloMosaic Idealize.ShloMosaic.ValueIdx

/-! ## Layout operations at coordinates -/

/-- A rank-2 transpose by `[1, 0]` read at `(a, b)` is the operand at `(b, a)`. -/
private theorem transpose2_apply {α : Type} {m n : Nat} (x : (⟨2, ![m, n]⟩ : Shape).Idx → α)
    (h : (⟨2, ![m, n]⟩ : Shape).Transposes [1, 0] ⟨2, ![n, m]⟩) (a : Fin n) (b : Fin m) :
    transpose ⟨2, ![n, m]⟩ [1, 0] x h (ix2 a b) = x (ix2 b a) :=
  transpose_apply [1, 0] x h (ix2 a b) (ix2 b a) fun c => match c with | ⟨0, _⟩ => rfl | ⟨1, _⟩ => rfl

/-- A scalar broadcast to any shape reads the scalar's one element everywhere. -/
private theorem bcast0_apply {α : Type} {t : Shape} (dims : Fin 0 → Fin t.rank) (h : (⟨0, ![]⟩ : Shape).BroadcastsInDim t dims)
    (v : (⟨0, ![]⟩ : Shape).Idx → α) (j : t.Idx) : broadcastInDim t dims h v j = v ix0 :=
  broadcastInDim_apply dims h v j ix0 fun a => a.elim0

/-- The bias row broadcast to [1, 4096] and then to [8192, 4096] reads the bias at the column. -/
private theorem bias_apply (b : FVec Ideal S4096 .f32) (r : Fin 8192) (n : Fin 4096) :
    broadcastInDim S8192x4096 ![0, 1] Facts₀.bcast_S1x4096_S8192x4096_0_1
      (broadcastInDim S1x4096 ![1] Facts₀.bcast_S4096_S1x4096_1 b) (ix2 r n) = b (ix1 n) := by
  refine (broadcastInDim_apply _ _ _ (ix2 r n) (ix2 (0 : Fin 1) n) fun a => ?_).trans ?_
  · match a with
    | ⟨0, _⟩ => rfl
    | ⟨1, _⟩ => rfl
  · exact broadcastInDim_apply _ _ _ (ix2 (0 : Fin 1) n) (ix1 n) fun a => match a with | ⟨0, _⟩ => rfl

/-- The scales broadcast along a new last axis of 64 and reshaped to [4096, 4096]: entry `(n, j)` is the scale of row
    `n` and group `j / 64`, since column `j = 64 g + t` is position `(g, t)` of the last two axes. -/
private theorem scales_apply (am : FVec Ideal S4096x64 .f32) (n j : Fin 4096) :
    shapeCast S4096x4096 (broadcastInDim S4096x64x64 ![0, 1] Facts₀.bcast_S4096x64_S4096x64x64_0_1 am)
      Facts₀.shapeCasts_S4096x64x64_S4096x4096 (ix2 n j) = am (ix2 n (Cert.QL.grpOf j)) := by
  have hj := j.isLt
  refine (shapeCast_apply _ _ (ix2 n j)
    (ix3 n (Cert.QL.grpOf j) (⟨j.val % 64, Nat.mod_lt _ (by decide)⟩ : Fin 64)) ?_).trans ?_
  · rw [Shape.rowMajor_val_three, Shape.rowMajor_val_two]
    show (n.val * 64 + j.val / 64) * 64 + j.val % 64 = n.val * 4096 + j.val
    omega
  · exact broadcastInDim_apply _ _ _ _ (ix2 n (Cert.QL.grpOf j)) fun a => match a with | ⟨0, _⟩ => rfl | ⟨1, _⟩ => rfl

/-! ## The code table gathered at the codes -/

/-- A word below 16 read signed is itself. -/
private theorem toInt_of_lt (w : BitVec 32) (hw : w.toNat < 16) : w.toInt = (w.toNat : Int) :=
  BitVec.toInt_eq_toNat_of_lt (by omega)

/-- A word below 16 is not negative: the signed comparison with zero is the bit `0`. -/
private theorem slt_zero_of_lt (w : BitVec 32) (hw : w.toNat < 16) : IntOp.cmpi .slt w 0#32 = 0#1 := by
  have h : w.slt 0#32 = false := by
    rw [BitVec.slt_eq_decide, toInt_of_lt w hw, BitVec.toInt_zero]
    exact decide_eq_false (by omega)
  show BitVec.ofBool (w.slt 0#32) = 0#1
  rw [h]; rfl

/-- The start index of a code below 16 is the code itself: it is not negative, so it is not raised by 16. -/
private theorem codeIdx_apply (q : IVec S4096x4096 32) (n j : Fin 4096) (hq : (q (ix2 n j)).toNat < 16) :
    RefTerm.codeIdx q (takeIdx (ix2 n j)) = q (ix2 n j) := by
  unfold RefTerm.codeIdx
  refine (broadcastInDim_apply _ _ _ (takeIdx (ix2 n j)) (ix2 n j) fun a => ?_).trans ?_
  · match a with
    | ⟨0, _⟩ => rfl
    | ⟨1, _⟩ => rfl
  · show Scalar.select (IntOp.cmpi .slt (q (ix2 n j)) 0#32) _ (q (ix2 n j)) = q (ix2 n j)
    rw [slt_zero_of_lt _ hq, select_zero]

/-- The code table at position `k` is the `k`-th code word's value. -/
private theorem table_apply (k : Fin 16) : RefTerm.table (F := Ideal) (ix1 k) = Ideal.ofBits .f32 (Cert.QL.nf4w k) := by
  have hk : S16.rowMajor (ix1 k) = k := Fin.ext (Shape.rowMajor_val_one _)
  have hl : lit0 = Cert.QL.nf4w := by funext c; fin_cases c <;> rfl
  unfold RefTerm.table
  rw [hk, hl]
  rfl

/-- The table gathered at the codes, read at `(n, j)`: the start index is the code, which the clamp into [0, 15]
    leaves alone, so the entry is the value of the code word there. -/
private theorem gather_apply (q : IVec S4096x4096 32) (n j : Fin 4096) (hq : (q (ix2 n j)).toNat < 16) :
    Host.gather gather_S16_S4096x4096x1_S4096x4096_n_0_n_n_0_2_1 (RefTerm.table (F := Ideal)) (RefTerm.codeIdx q) (ix2 n j)
      = Cert.QL.dq (q (ix2 n j)) := by
  have hrec : gather_S16_S4096x4096x1_S4096x4096_n_0_n_n_0_2_1
      = takeDims 16 4096 4096 Facts₀.gather_S16_S4096x4096x1_S4096x4096_n_0_n_n_0_2_1_wf := rfl
  rw [hrec]
  refine (gather_take_apply (by decide) _ _ _ (ix2 n j)).trans ?_
  rw [table_apply]
  unfold Cert.QL.dq
  refine congrArg (fun k => Ideal.ofBits .f32 (Cert.QL.nf4w k)) (Fin.ext ?_)
  show min (RefTerm.codeIdx q (takeIdx (ix2 n j))).toInt.toNat (16 - 1) = (q (ix2 n j)).toNat % 16
  rw [codeIdx_apply q n j hq, toInt_of_lt _ hq, Int.toNat_natCast]
  omega

/-- The dequantized weight at row `n`, column `j`: the code word's value times the scale of the column's group. -/
private theorem weight_apply (am : FVec Ideal S4096x64 .f32) (q : IVec S4096x4096 32) (n j : Fin 4096)
    (hq : (q (ix2 n j)).toNat < 16) : RefTerm.weight (F := Ideal) am q (ix2 n j) = Cert.QL.wt am q n j := by
  unfold RefTerm.weight Cert.QL.wt
  rw [mulf_apply, gather_apply q n j hq, scales_apply]

/-! ## The three products

Each record contracts the left operand's columns against the right operand's rows with no batch axis: it is the plain
M×K by K×N product, whose entry is the sum over the contracted coordinate. -/

/-- The base product read at `(r, n)`: the sum over the 4096 contracted columns. -/
private theorem dotW_apply (lhs : FVec Ideal S8192x4096 .f32) (rhs : FVec Ideal S4096x4096 .f32) (r : Fin 8192) (n : Fin 4096) :
    Host.dotGeneral (F := Ideal) dot_S8192x4096_S4096x4096_S8192x4096_1_0_0_1_n_n none lhs rhs (ix2 r n)
      = ∑ k : Fin 4096, lhs (ix2 r k) * rhs (ix2 k n) :=
  StackMember.dotGeneral_plain_apply none lhs rhs r n

/-- The adapter's hidden product read at `(r, s)`: the sum over the 4096 contracted columns. -/
private theorem dotD_apply (lhs : FVec Ideal S8192x4096 .f32) (rhs : FVec Ideal S4096x16 .f32) (r : Fin 8192) (s : Fin 16) :
    Host.dotGeneral (F := Ideal) dot_S8192x4096_S4096x16_S8192x16_1_0_0_1_n_n none lhs rhs (ix2 r s)
      = ∑ k : Fin 4096, lhs (ix2 r k) * rhs (ix2 k s) :=
  StackMember.dotGeneral_plain_apply none lhs rhs r s

/-- The adapter's output product read at `(r, n)`: the sum over the 16 contracted ranks. -/
private theorem dotU_apply (lhs : FVec Ideal S8192x16 .f32) (rhs : FVec Ideal S16x4096 .f32) (r : Fin 8192) (n : Fin 4096) :
    Host.dotGeneral (F := Ideal) dot_S8192x16_S16x4096_S8192x4096_1_0_0_1_n_n none lhs rhs (ix2 r n)
      = ∑ s : Fin 16, lhs (ix2 r s) * rhs (ix2 s n) :=
  StackMember.dotGeneral_plain_apply none lhs rhs r n

/-! ## The reference's result -/

/-- `G` read at `(r, n)`. -/
private theorem G_apply (x : Cert.QL.SX.Idx → EReal) (am : Cert.QL.SA.Idx → EReal) (b : Cert.QL.SB.Idx → EReal)
    (ld : Cert.QL.SD.Idx → EReal) (lu : Cert.QL.SU.Idx → EReal) (sc : EReal) (q : Cert.QL.SQ.Idx → BitVec 32)
    (r : Fin 8192) (n : Fin 4096) :
    Cert.QL.G x am b ld lu sc q (ix2 r n)
      = ((∑ j : Fin 4096, x (ix2 r j) * Cert.QL.wt am q n j) + b (ix1 n))
        + (∑ s : Fin 16, (∑ j : Fin 4096, x (ix2 r j) * ld (ix2 s j)) * lu (ix2 n s)) * sc := rfl

/-- The host quotient alpha / 16 is the adapter's scale. -/
private theorem scale_apply (al : FVec Ideal S_ .f32) :
    Host.divf (F := Ideal) al (constant (F := Ideal) S_ .f32 0x41800000#32) ix0 = Cert.QL.scOf al := rfl

/-- With every code below 16, the reference's term is `G` of the arguments, the scale being alpha / 16. -/
theorem refOut_eq_G (x : FVec Ideal S8192x4096 .f32) (am : FVec Ideal S4096x64 .f32) (b : FVec Ideal S4096 .f32)
    (ld : FVec Ideal S16x4096 .f32) (lu : FVec Ideal S4096x16 .f32) (al : FVec Ideal S_ .f32) (q : IVec S4096x4096 32)
    (hq : ∀ i, (q i).toNat < 16) :
    RefTerm.refOut (F := Ideal) x am b ld lu al q = Cert.QL.G x am b ld lu (Cert.QL.scOf al) q := by
  funext i
  obtain ⟨r, n, rfl⟩ : ∃ (r : Fin 8192) (n : Fin 4096), i = ix2 r n := ⟨i 0, i 1, eq_ix2 i⟩
  unfold RefTerm.refOut
  -- the pointwise operations, the two outer products, the bias row and the scale, each read at (r, n)
  rw [addf_apply, addf_apply, mulf_apply, dotW_apply, bias_apply, dotU_apply, bcast0_apply, scale_apply, G_apply]
  -- the base product's summand: the transposed weight at (k, n) is the weight at (n, k)
  have hW : ∀ k : Fin 4096, x (ix2 r k) * transpose S4096x4096 [1, 0] (RefTerm.weight (F := Ideal) am q)
      Facts₀.transposes_S4096x4096_S4096x4096_1_0 (ix2 k n) = x (ix2 r k) * Cert.QL.wt am q n k := fun k => by
    rw [transpose2_apply, weight_apply am q n k (hq _)]
  -- the hidden product's summand: the transposed down matrix at (k, s) is the down matrix at (s, k)
  have hT : ∀ (s : Fin 16) (k : Fin 4096),
      x (ix2 r k) * transpose S4096x16 [1, 0] ld Facts₀.transposes_S16x4096_S4096x16_1_0 (ix2 k s)
        = x (ix2 r k) * ld (ix2 s k) := fun s k => by
    rw [transpose2_apply]
  -- the adapter's summand: the hidden product at (r, s) times the transposed up matrix at (s, n)
  have hD : ∀ s : Fin 16,
      Host.dotGeneral (F := Ideal) dot_S8192x4096_S4096x16_S8192x16_1_0_0_1_n_n none x
          (transpose S4096x16 [1, 0] ld Facts₀.transposes_S16x4096_S4096x16_1_0) (ix2 r s)
        * transpose S16x4096 [1, 0] lu Facts₀.transposes_S4096x16_S16x4096_1_0 (ix2 s n)
      = (∑ j : Fin 4096, x (ix2 r j) * ld (ix2 s j)) * lu (ix2 n s) := fun s => by
    rw [dotD_apply, transpose2_apply, Finset.sum_congr rfl fun k _ => hT s k]
  rw [Finset.sum_congr rfl fun k _ => hW k, Finset.sum_congr rfl fun s _ => hD s]

end Cert.ReferenceIdeal.RefValue

end
-- ==== Proof.Algebra.lean ====
import proofs.«423903_j62594853372313_2_alg».proof.Proof.Spec

/-!
The two arrangements of the result agree on finite inputs: the 32 blocks of 128 columns are
the 4096 columns, and a real scale moves out of a finite sum of real products.
-/

noncomputable section

namespace Cert.QL

open Idealize.ShloMosaic Idealize.ShloMosaic.ValueIdx

/-- A column is a block of 128 and a place in the block: `(k, c) ↦ 128 k + c` is a bijection
    from 32 × 128 onto 4096, with inverse `j ↦ (j / 128, j % 128)`. -/
private def blockEquiv : Fin 32 × Fin 128 ≃ Fin 4096 where
  toFun p := ⟨128 * p.1.val + p.2.val, by have := p.1.isLt; have := p.2.isLt; omega⟩
  invFun j := (⟨j.val / 128, by have := j.isLt; omega⟩, ⟨j.val % 128, Nat.mod_lt _ (by decide)⟩)
  left_inv p := by
    rcases p with ⟨⟨k, hk⟩, ⟨c, hc⟩⟩
    simp only [Prod.mk.injEq, Fin.mk.injEq]
    constructor <;> omega
  right_inv j := by
    rcases j with ⟨j, hj⟩
    simp only [Fin.mk.injEq]
    omega

/-- The wrapped column of a block below 32 is the unwrapped one. -/
private theorem colOf_eq (k : Fin 32) (c : Fin 128) : colOf k.val c = blockEquiv (k, c) := by
  rcases k with ⟨k, hk⟩
  rcases c with ⟨c, hc⟩
  apply Fin.ext
  show (128 * k + c) % 4096 = 128 * k + c
  omega

/-- The coercion of the reals into the extended reals commutes with finite sums. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The pattern `0x41800000` is sixteen: exponent field 131, fraction 0, so `2^23 · 2^(131 - 127 - 23)`. -/
private theorem ofBits_sixteen : Ideal.ofBits .f32 0x41800000#32 = ((16 : ℝ) : EReal) := by
  simp [Ideal.ofBits, Ideal.ieee, -EReal.coe_mul]; norm_num

/-- The 32 column blocks of 128 enumerate the 4096 columns once each. -/
theorem sum_blocks (f : Fin 4096 → EReal) :
    (∑ k ∈ Finset.range 32, ∑ c : Fin 128, f (colOf k c)) = ∑ j : Fin 4096, f j := by
  rw [Finset.sum_range (fun k => ∑ c : Fin 128, f (colOf k c))]
  rw [← Fintype.sum_prod_type' (f := fun (k : Fin 32) (c : Fin 128) => f (colOf k.val c))]
  refine Fintype.sum_equiv blockEquiv _ _ ?_
  rintro ⟨k, c⟩
  show f (colOf k.val c) = f (blockEquiv (k, c))
  rw [colOf_eq]

/-- alpha / 16 is real when alpha is. -/
theorem scOf_real (al : S0.Idx → EReal) (h : ∃ r : ℝ, al ix0 = (r : EReal)) : ∃ r : ℝ, scOf al = (r : EReal) := by
  obtain ⟨r, hr⟩ := h
  refine ⟨r * (1 / 16), ?_⟩
  rw [scOf, ofBits_sixteen, Ideal.div_coe (by norm_num), hr, ← EReal.coe_mul]

/-- On real inputs the kernel's arrangement is the reference's. -/
theorem GK_eq_G (x : SX.Idx → EReal) (am : SA.Idx → EReal) (b : SB.Idx → EReal) (ld : SD.Idx → EReal) (lu : SU.Idx → EReal)
    (sc : EReal) (q : SQ.Idx → BitVec 32)
    (hx : ∀ i, ∃ r : ℝ, x i = (r : EReal)) (hld : ∀ i, ∃ r : ℝ, ld i = (r : EReal)) (hlu : ∀ i, ∃ r : ℝ, lu i = (r : EReal))
    (hsc : ∃ r : ℝ, sc = (r : EReal)) :
    GK x am b ld lu sc q = G x am b ld lu sc q := by
  funext i
  choose xr hxr using hx
  choose dr hdr using hld
  choose ur hur using hlu
  obtain ⟨sr, hsr⟩ := hsc
  -- the hidden product of rank `s`, in either arrangement, is the coercion of a real sum
  have hG : ∀ s : Fin 16, (∑ j : Fin 4096, x (ix2 (i 0) j) * ld (ix2 s j))
      = ((∑ j : Fin 4096, xr (ix2 (i 0) j) * dr (ix2 s j) : ℝ) : EReal) := by
    intro s
    rw [coe_sum]
    refine Finset.sum_congr rfl (fun j _ => ?_)
    rw [hxr, hdr, EReal.coe_mul]
  have hK : ∀ s : Fin 16, hidUpTo x ld 32 (i 0) s
      = ((∑ j : Fin 4096, xr (ix2 (i 0) j) * dr (ix2 s j) : ℝ) : EReal) := by
    intro s
    rw [← hG s]
    exact sum_blocks (fun j => x (ix2 (i 0) j) * ld (ix2 s j))
  -- the base sums agree block by block; the bias summand is left as it is
  have hbase : baseUpTo x am q 32 (i 0) (i 1) = ∑ j : Fin 4096, x (ix2 (i 0) j) * wt am q (i 1) j :=
    sum_blocks (fun j => x (ix2 (i 0) j) * wt am q (i 1) j)
  show (baseUpTo x am q 32 (i 0) (i 1) + b (ix1 (i 1)))
      + ∑ s : Fin 16, hidUpTo x ld 32 (i 0) s * (lu (ix2 (i 1) s) * sc)
    = ((∑ j : Fin 4096, x (ix2 (i 0) j) * wt am q (i 1) j) + b (ix1 (i 1)))
      + (∑ s : Fin 16, (∑ j : Fin 4096, x (ix2 (i 0) j) * ld (ix2 s j)) * lu (ix2 (i 1) s)) * sc
  rw [hbase]
  congr 1
  -- the adapter term: a real scale moves out of a finite sum of real products
  simp only [hK, hG, hur, hsr, ← EReal.coe_mul, ← coe_sum]
  congr 1
  rw [Finset.sum_mul]
  exact Finset.sum_congr rfl (fun s _ => (mul_assoc _ _ _).symm)

end Cert.QL

end
-- ==== Proof.PreDecode.lean ====
import proofs.«423903_j62594853372313_2_alg».proof.Pre_finite_inputs
import proofs.«423903_j62594853372313_2_alg».proof.Proof.Gen.Pre_finite_inputs
import Idealize.ShloMosaic.PureOps.Ideal
import Idealize.ShloMosaic.Lib.ValueIdx
import Idealize.ShloMosaic.Lib.ReduceAll

/-!
What the precondition says of the inputs, entry by entry: the float arrays the result's
algebra moves factors through hold real numbers, and every code lies in [0, 16).
-/

noncomputable section

namespace Cert.PreDecode

open Idealize.ShloMosaic Idealize.ShloMosaic.ValueIdx Cert.Pre_finite_inputs

/-- A value whose absolute value compares below the word of +∞ is a real number: the word `0x7F800000` reads as `⊤`,
    the absolute value is `max v (-v)`, and `max v (-v) < ⊤` fails at both infinities. -/
private theorem real_of_abs_lt_inf (v : Ideal .f32)
    (e : FloatOps.cmpf .olt (FloatOps.hostAbsf v) (FloatOps.ofBits (F := Ideal) .f32 0x7F800000#32) = 1#1) :
    ∃ r : ℝ, v = (r : EReal) := by
  have htop : Ideal.ofBits .f32 0x7F800000#32 = ⊤ := by simp [Ideal.ofBits, Ideal.ieee]
  change Ideal.cmp .olt (max (v : EReal) (-(v : EReal))) (Ideal.ofBits .f32 0x7F800000#32) = 1#1 at e
  rw [htop] at e
  unfold Ideal.cmp at e
  induction v using EReal.rec with
  | bot => simp at e
  | coe r => exact ⟨r, rfl⟩
  | top => simp at e

/-- A 32-bit word that is at least 0 and below 16 as a signed number is below 16 as a natural number: a nonnegative
    signed reading is the unsigned one. -/
private theorem toNat_lt_16 (w : BitVec 32) (h0 : IntOp.cmpi .sge w 0#32 = 1#1) (h1 : IntOp.cmpi .slt w 16#32 = 1#1) :
    w.toNat < 16 := by
  rw [IntOp.cmpi_sge] at h0
  rw [IntOp.cmpi_slt] at h1
  have e0 : (0#32 : BitVec 32).toInt = 0 := by decide
  have e16 : (16#32 : BitVec 32).toInt = 16 := by decide
  rw [e0] at h0
  rw [e16] at h1
  rw [BitVec.toInt_eq_toNat_cond] at h0 h1
  split at h0 <;> omega

/-- The printed precondition, all ones, gives: `x`, `lora_down_w`, `lora_up_w` and `alpha` real at every entry, and every
    code word of `q_codes` below 16 as a natural number (0 ≤ q < 16 as a signed word). -/
theorem decode (x : FVec Ideal S8192x4096 .f32) (am : FVec Ideal S4096x64 .f32) (b : FVec Ideal S4096 .f32)
    (ld : FVec Ideal S16x4096 .f32) (lu : FVec Ideal S4096x16 .f32) (al : FVec Ideal S_ .f32) (q : IVec S4096x4096 32)
    (h : Cert.Pre_finite_inputs.fn (F := Ideal) x am b ld lu al q = fun _ => 1#1) :
    (∀ i, ∃ r : ℝ, x i = (r : EReal)) ∧ (∀ i, ∃ r : ℝ, ld i = (r : EReal)) ∧ (∀ i, ∃ r : ℝ, lu i = (r : EReal))
      ∧ (∃ r : ℝ, al ix0 = (r : EReal)) ∧ (∀ i, (q i).toNat < 16) := by
  -- The precondition is a function on the one index of the rank-0 shape: read it there and open its lets.
  have h0 := congrFun h ValueIdx.ix0
  dsimp only [fn, fn_part1, fn_part2] at h0
  haveI : Subsingleton S_.Idx := ⟨fun a b => funext fun d => d.elim0⟩
  -- A conjunction of one-bit words is 1 exactly when both are: peel the seven conjuncts from the right.
  obtain ⟨h1, hq⟩ := IntOp.andi_eq_one.1 h0
  obtain ⟨h2, hal⟩ := IntOp.andi_eq_one.1 h1
  obtain ⟨h3, hlu⟩ := IntOp.andi_eq_one.1 h2
  obtain ⟨h4, hld⟩ := IntOp.andi_eq_one.1 h3
  obtain ⟨h5, -⟩ := IntOp.andi_eq_one.1 h4
  obtain ⟨hx, -⟩ := IntOp.andi_eq_one.1 h5
  -- Each conjunct is a reduction by `and` over all axes, so every entry of the reduced array is 1.
  refine ⟨fun i => ?_, fun i => ?_, fun i => ?_, ?_, fun i => ?_⟩
  · exact real_of_abs_lt_inf (x i) (Host.reduce_andi_all _ _ _ _ _ hx i)
  · exact real_of_abs_lt_inf (ld i) (Host.reduce_andi_all _ _ _ _ _ hld i)
  · exact real_of_abs_lt_inf (lu i) (Host.reduce_andi_all _ _ _ _ _ hlu i)
  · exact real_of_abs_lt_inf (al ix0) (Host.reduce_andi_all _ _ _ _ _ hal ix0)
  · have hi := Host.reduce_andi_all _ _ _ _ _ hq i
    obtain ⟨ha, hb⟩ := IntOp.andi_eq_one.1 hi
    exact toNat_lt_16 (q i) ha hb

end Cert.PreDecode

end
-- ==== Proof.lean ====
/-
  The certificate of the QLoRA linear layer: an NF4-coded base weight (sixteen table values
  selected by a code's four low bits, times the scale of the code's group of 64 columns) and a
  rank-16 adapter scaled by alpha / 16, computed by a Pallas kernel over a 4 × 4 × 32 grid against
  the jnp reference.

  The mathematics. Every output entry (r, n) is
      Σ_j x[r, j] · (table[q[n, j]] · absmax[n, j / 64]) + bias[n] + Σ_s (Σ_j x[r, j] · down[s, j]) · up[n, s] · (alpha / 16).
  The kernel walks the 4096 columns in 32 blocks of 128, keeping the base sum and the adapter's
  hidden sum in two accumulators zeroed at a run's first block, and at the last block adds the
  bias row and the hidden sum times the up matrix already scaled by alpha / 16; the reference
  contracts all columns at once and scales after the rank sum. The two arrangements agree on the
  extended reals because a sum over 32 × 128 columns is the sum over 4096, and a real scale moves
  through a finite sum of real products: that is where the finiteness of x, the down and up
  matrices and alpha is used. The kernel decodes a code by its low four bits; the reference gathers
  the table at the code itself (clamped); the two agree where every code lies in [0, 16), the
  stated domain of the codes.
-/
import proofs.«423903_j62594853372313_2_alg».proof.Defs
import proofs.«423903_j62594853372313_2_alg».proof.Proof.Gen.Kernel
import proofs.«423903_j62594853372313_2_alg».proof.Proof.Gen.Kernel.Frame
import proofs.«423903_j62594853372313_2_alg».proof.Proof.Gen.KernelIdeal
import proofs.«423903_j62594853372313_2_alg».proof.Proof.Gen.KernelIdeal.Frame
import proofs.«423903_j62594853372313_2_alg».proof.Proof.Gen.ReferenceIdeal
import proofs.«423903_j62594853372313_2_alg».proof.Proof.Gen.Pre_finite_inputs
import proofs.«423903_j62594853372313_2_alg».proof.Proof.KernelValue
import proofs.«423903_j62594853372313_2_alg».proof.Proof.RefRun
import proofs.«423903_j62594853372313_2_alg».proof.Proof.RefValue
import proofs.«423903_j62594853372313_2_alg».proof.Proof.Algebra
import proofs.«423903_j62594853372313_2_alg».proof.Proof.PreDecode

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both programs end with the kernel's arrangement of the result: the kernel by its run, the reference because on inputs
    the precondition admits — real x, down, up and alpha, codes in [0, 16) — its term is the reference's arrangement,
    which is the kernel's. -/
theorem algebraic : Cert.algebraic_KernelIdeal_ReferenceIdeal := by
  intro m ρ m' ρ' hpre hagree
  refine ⟨fun c => Cert.KernelIdeal.KVal.result m c, Cert.KernelIdeal.KVal.run m ρ, ?_⟩
  refine (θ_run Cert.ReferenceIdeal.defs _ _).mono (fun _ h c => ⟨(h c).1.trans ?_, (h c).2⟩)
    (Cert.ReferenceIdeal.RefRun.run (F := Ideal) m' ρ')
  obtain ⟨a0, a1, a2, a3, a4, a5, a6⟩ := hagree c
  rw [a0, a1, a2, a3, a4, a5, a6]
  obtain ⟨hx, hld, hlu, hal, hq⟩ := Cert.PreDecode.decode _ _ _ _ _ _ _ (hpre c)
  rw [Cert.ReferenceIdeal.RefValue.refOut_eq_G _ _ _ _ _ _ _ hq]
  exact (Cert.QL.GK_eq_G _ _ _ _ _ _ _ hx hld hlu (Cert.QL.scOf_real _ hal)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
